-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S300000x9 : Shape := ⟨2, ![300000, 9]⟩
abbrev S64 : Shape := ⟨1, ![64]⟩
abbrev S576x64 : Shape := ⟨2, ![576, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_
  bcast_S_S576x64 : S_.BroadcastsInDim S576x64 (![] : Fin 0 → Fin S576x64.rank)
  reducesTo_S576x64_S_d0_1 : S576x64.ReducesTo [0, 1] S_

variable [Facts]

def fn_part1 {F : FTy → Type} [FloatOps F] (main_v13 : IVec S_ 1) (main_v16 : IVec S576x64 1) : IVec S_ 1 :=
  let main_c_5 : IVec S_ 1 := constantI S_ 1 1#1
  let main_v17 : IVec S_ 1 := (fun x v => Host.reduce IntOp.andi x v reducesTo_S576x64_S_d0_1 h_S_) main_v16 main_c_5
  let main_v18 : IVec S_ 1 := andi main_v13 main_v17
  main_v18

def fn {F : FTy → Type} [FloatOps F] (main_arg0 : FVec F S100000x64 .f32) (main_arg1 : IVec S300000x9 32) (main_arg2 : FVec F S64 .f32) (main_arg3 : FVec F S64 .f32) (main_arg4 : FVec F S576x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S576x64 .f32 := Host.absf main_arg4
  let main_cst_4 : FVec F S_ .f32 := constant S_ .f32 0x7F800000#32
  let main_v15 : FVec F S576x64 .f32 := broadcastInDim S576x64 ![] bcast_S_S576x64 main_cst_4
  let main_v16 : IVec S576x64 1 := cmpf .olt main_v14 main_v15
  fn_part1 (F := F) main_v13 main_v16
-- ==== Kernel.lean ====
abbrev S100000x64 : Shape := ⟨2, ![100000, 64]⟩
abbrev S300000x9 : Shape := ⟨2, ![300000, 9]⟩
abbrev S64 : Shape := ⟨1, ![64]⟩
abbrev S576x64 : Shape := ⟨2, ![576, 64]⟩
abbrev S1x64 : Shape := ⟨2, ![1, 64]⟩
abbrev S5000x64 : Shape := ⟨2, ![5000, 64]⟩
abbrev S32x2 : Shape := ⟨2, ![32, 2]⟩
abbrev S_ : Shape := ⟨0, ![]⟩
abbrev S32 : Shape := ⟨1, ![32]⟩
abbrev S300000x9x1 : Shape := ⟨3, ![300000, 9, 1]⟩
abbrev S300000x9x64 : Shape := ⟨3, ![300000, 9, 64]⟩
abbrev S300000x576 : Shape := ⟨2, ![300000, 576]⟩
abbrev S300000x64 : Shape := ⟨2, ![300000, 64]⟩
abbrev S10000x576 : Shape := ⟨2, ![10000, 576]⟩
abbrev S10000x64 : Shape := ⟨2, ![10000, 64]⟩

abbrev nBuf : Space → Nat
  | .hbm => 48
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S300000x9, .i32⟩
  | .hbm, ⟨2, _⟩ => ⟨S64, .f32⟩
  | .hbm, ⟨3, _⟩ => ⟨S64, .f32⟩
  | .hbm, ⟨4, _⟩ => ⟨S576x64, .f32⟩
  | .hbm, ⟨5, _⟩ => ⟨S1x64, .f32⟩
  | .hbm, ⟨6, _⟩ => ⟨S1x64, .f32⟩
  | .hbm, ⟨7, _⟩ => ⟨S32x2, .f32⟩
  | .hbm, ⟨8, _⟩ => ⟨S_, .f32⟩
  | .hbm, ⟨9, _⟩ => ⟨S32, .f32⟩
  | .hbm, ⟨10, _⟩ => ⟨S32x2, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32x2, .f32⟩
  | .hbm, ⟨26, _⟩ => ⟨S64, .f32⟩
  | .hbm, ⟨27, _⟩ => ⟨S32x2, .f32⟩
  | .hbm, ⟨28, _⟩ => ⟨S64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S1x64, .f32⟩
  | .hbm, ⟨35, _⟩ => ⟨S100000x64, .bf16⟩
  | .hbm, ⟨36, _⟩ => ⟨S_, .i32⟩
  | .hbm, ⟨37, _⟩ => ⟨S300000x9, .i32⟩
  | .hbm, ⟨38, _⟩ => ⟨S300000x9, .i1⟩
  | .hbm, ⟨39, _⟩ => ⟨S_, .i32⟩
  | .hbm, ⟨40, _⟩ => ⟨S300000x9, .i32⟩
  | .hbm, ⟨41, _⟩ => ⟨S300000x9, .i32⟩
  | .hbm, ⟨42, _⟩ => ⟨S300000x9, .i32⟩
  | .hbm, ⟨43, _⟩ => ⟨S300000x9x1, .i32⟩
  | .hbm, ⟨44, _⟩ => ⟨S300000x9x64, .bf16⟩
  | .hbm, ⟨45, _⟩ => ⟨S300000x576, .bf16⟩
  | .hbm, ⟨46, _⟩ => ⟨S576x64, .bf16⟩
  | .hbm, ⟨47, _⟩ => ⟨S300000x64, .f32⟩
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S1x64, .f32⟩
  | .local _ .vmem, ⟨7, _⟩ => ⟨S1x64, .f32⟩
  | .local _ .vmem, ⟨8, _⟩ => ⟨S5000x64, .bf16⟩
  | .local _ .vmem, ⟨9, _⟩ => ⟨S5000x64, .bf16⟩
  | .local _ .vmem, ⟨10, _⟩ => ⟨S10000x576, .bf16⟩
  | .local _ .vmem, ⟨11, _⟩ => ⟨S10000x576, .bf16⟩
  | .local _ .vmem, ⟨12, _⟩ => ⟨S576x64, .bf16⟩
  | .local _ .vmem, ⟨13, _⟩ => ⟨S10000x64, .f32⟩
  | .local _ .vmem, ⟨14, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x576 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S1x64_S1x64 : S1x64.ShapeCasts S1x64
  reduces_S5000x64_S64 : S5000x64.Reduces [0] S64
  shapeCasts_S64_S1x64 : S64.ShapeCasts S1x64
  shapeCasts_S1x64_S32x2 : S1x64.ShapeCasts S32x2
  reducesTo_S32x2_S32_d1 : S32x2.ReducesTo [1] S32
  h_S_ : 0 < S_.numel
  bcast_S_S32 : S_.BroadcastsInDim S32 (![] : Fin 0 → Fin S32.rank)
  bcast_S32_S32x2_0 : S32.BroadcastsInDim S32x2 (![0] : Fin 1 → Fin S32x2.rank)
  shapeCasts_S32x2_S64 : S32x2.ShapeCasts S64
  broadcasts_S1x64_S5000x64 : S1x64.Broadcasts S5000x64
  bitsLt_bf16_f32 : FTy.bits .bf16 < FTy.bits .f32
  packedbf16_S5000x64_S5000x64_0_0 : (Rect.unit (s := S5000x64) ![0, 0] S5000x64.size inb_S5000x64_S5000x64_0_0).PackedRows (EltTy.packing .bf16)
  bcast_S_S300000x9 : S_.BroadcastsInDim S300000x9 (![] : Fin 0 → Fin S300000x9.rank)
  bcast_S300000x9_S300000x9x1_0_1 : S300000x9.BroadcastsInDim S300000x9x1 (![0, 1] : Fin 2 → Fin S300000x9x1.rank)
  shapeCasts_S300000x9x64_S300000x576 : S300000x9x64.ShapeCasts S300000x576
  inb_S10000x576_S10000x576_0_0 : ∀ a, (![0, 0] : Fin 2 → Nat) a + S10000x576.size a ≤ S10000x576.size a
  h_S10000x576 : 0 < S10000x576.numel
  shapeCasts_S10000x576_S10000x576 : S10000x576.ShapeCasts S10000x576
  inb_S576x64_S576x64_0_0 : ∀ a, (![0, 0] : Fin 2 → Nat) a + S576x64.size a ≤ S576x64.size a
  h_S576x64 : 0 < S576x64.numel
  shapeCasts_S576x64_S576x64 : S576x64.ShapeCasts S576x64
  inb_S10000x64_S10000x64_0_0 : ∀ a, (![0, 0] : Fin 2 → Nat) a + S10000x64.size a ≤ S10000x64.size a
  h_S10000x64 : 0 < S10000x64.numel
  gather_S100000x64_S300000x9x1_S300000x9x64_2_0_n_n_0_2_164_wf : GatherDims.WF S100000x64 S300000x9x1 S300000x9x64 [2] [0] [] [0] [] 2 ![1, 64]
  dot_S10000x576_S576x64_S10000x64_1_0_0_1_n_n_wf : DotDims.WF S10000x576 S576x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x576.size a ≤ S300000x576.size a
  hwx2_0 : ∀ i : grid2.Coords, EltTy.bits .bf16 = 32 ∨ (Rect.block (s := S300000x576) S10000x576.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S576x64.size a ≤ S576x64.size a
  hwx2_1 : ∀ i : grid2.Coords, EltTy.bits .bf16 = 32 ∨ (Rect.block (s := S576x64) S576x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S300000x64.size a
  hwx2_2 : ∀ i : grid2.Coords, EltTy.bits .f32 = 32 ∨ (Rect.block (s := S300000x64) S10000x64.size (cc2_transform_2 i) (hinb2_2 i)).WholeWords (EltTy.packing .f32)

variable [Facts₀]

def gather_S100000x64_S300000x9x1_S300000x9x64_2_0_n_n_0_2_164 : GatherDims S100000x64 S300000x9x1 S300000x9x64 where
  offsetDims := [2]
  collapsedSliceDims := [0]
  operandBatchingDims := []
  startIndicesBatchingDims := []
  startIndexMap := [0]
  indexVectorDim := 2
  sliceSizes := ![1, 64]
  wf := gather_S100000x64_S300000x9x1_S300000x9x64_2_0_n_n_0_2_164_wf
def dot_S10000x576_S576x64_S10000x64_1_0_0_1_n_n : DotDims S10000x576 S576x64 S10000x64 where
  lhsContracting := [1]
  rhsContracting := [0]
  lhsNonContracting := [0]
  rhsNonContracting := [1]
  lhsBatch := []
  rhsBatch := []
  wf := dot_S10000x576_S576x64_S10000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S10000x576.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S576x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S300000x9 : Shape := ⟨2, ![300000, 9]⟩
abbrev S64 : Shape := ⟨1, ![64]⟩
abbrev S576x64 : Shape := ⟨2, ![576, 64]⟩
abbrev S100000x32x2 : Shape := ⟨3, ![100000, 32, 2]⟩
abbrev S_ : Shape := ⟨0, ![]⟩
abbrev S32 : Shape := ⟨1, ![32]⟩
abbrev S1x32x1 : Shape := ⟨3, ![1, 32, 1]⟩
abbrev S1x64 : Shape := ⟨2, ![1, 64]⟩
abbrev S300000x9x1 : Shape := ⟨3, ![300000, 9, 1]⟩
abbrev S300000x9x64 : Shape := ⟨3, ![300000, 9, 64]⟩
abbrev S300000x576 : Shape := ⟨2, ![300000, 576]⟩
abbrev S300000x64 : Shape := ⟨2, ![300000, 64]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S300000x9, .i32⟩
  | .hbm, ⟨2, _⟩ => ⟨S64, .f32⟩
  | .hbm, ⟨3, _⟩ => ⟨S64, .f32⟩
  | .hbm, ⟨4, _⟩ => ⟨S576x64, .f32⟩
  | .hbm, ⟨5, _⟩ => ⟨S100000x32x2, .f32⟩
  | .hbm, ⟨6, _⟩ => ⟨S_, .f32⟩
  | .hbm, ⟨7, _⟩ => ⟨S32, .f32⟩
  | .hbm, ⟨8, _⟩ => ⟨S1x32x1, .f32⟩
  | .hbm, ⟨9, _⟩ => ⟨S_, .f32⟩
  | .hbm, ⟨10, _⟩ => ⟨S1x32x1, .f32⟩
  | .hbm, ⟨11, _⟩ => ⟨S1x32x1, .f32⟩
  | .hbm, ⟨12, _⟩ => ⟨S100000x32x2, .f32⟩
  | .hbm, ⟨13, _⟩ => ⟨S100000x32x2, .f32⟩
  | .hbm, ⟨14, _⟩ => ⟨S100000x32x2, .f32⟩
  | .hbm, ⟨15, _⟩ => ⟨S_, .f32⟩
  | .hbm, ⟨16, _⟩ => ⟨S32, .f32⟩
  | .hbm, ⟨17, _⟩ => ⟨S1x32x1, .f32⟩
  | .hbm, ⟨18, _⟩ => ⟨S_, .f32⟩
  | .hbm, ⟨19, _⟩ => ⟨S1x32x1, .f32⟩
  | .hbm, ⟨20, _⟩ => ⟨S1x32x1, .f32⟩
  | .hbm, ⟨21, _⟩ => ⟨S100000x32x2, .f32⟩
  | .hbm, ⟨22, _⟩ => ⟨S100000x32x2, .f32⟩
  | .hbm, ⟨23, _⟩ => ⟨S_, .f32⟩
  | .hbm, ⟨24, _⟩ => ⟨S1x32x1, .f32⟩
  | .hbm, ⟨25, _⟩ => ⟨S1x32x1, .f32⟩
  | .hbm, ⟨26, _⟩ => ⟨S1x32x1, .f32⟩
  | .hbm, ⟨27, _⟩ => ⟨S100000x32x2, .f32⟩
  | .hbm, ⟨28, _⟩ => ⟨S100000x32x2, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S300000x9, .i32⟩
  | .hbm, ⟨41, _⟩ => ⟨S300000x9, .i1⟩
  | .hbm, ⟨42, _⟩ => ⟨S_, .i32⟩
  | .hbm, ⟨43, _⟩ => ⟨S300000x9, .i32⟩
  | .hbm, ⟨44, _⟩ => ⟨S300000x9, .i32⟩
  | .hbm, ⟨45, _⟩ => ⟨S300000x9, .i32⟩
  | .hbm, ⟨46, _⟩ => ⟨S300000x9x1, .i32⟩
  | .hbm, ⟨47, _⟩ => ⟨S300000x9x64, .f32⟩
  | .hbm, ⟨48, _⟩ => ⟨S300000x576, .f32⟩
  | .hbm, ⟨49, _⟩ => ⟨S300000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  shapeCasts_S100000x64_S100000x32x2 : S100000x64.ShapeCasts S100000x32x2
  reducesTo_S100000x32x2_S32_d0_2 : S100000x32x2.ReducesTo [0, 2] S32
  h_S_ : 0 < S_.numel
  bcast_S32_S1x32x1_1 : S32.BroadcastsInDim S1x32x1 (![1] : Fin 1 → Fin S1x32x1.rank)
  bcast_S_S1x32x1 : S_.BroadcastsInDim S1x32x1 (![] : Fin 0 → Fin S1x32x1.rank)
  bcast_S1x32x1_S100000x32x2_0_1_2 : S1x32x1.BroadcastsInDim S100000x32x2 (![0, 1, 2] : Fin 3 → Fin S100000x32x2.rank)
  shapeCasts_S100000x32x2_S100000x64 : S100000x32x2.ShapeCasts S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S300000x9 : S_.BroadcastsInDim S300000x9 (![] : Fin 0 → Fin S300000x9.rank)
  bcast_S300000x9_S300000x9x1_0_1 : S300000x9.BroadcastsInDim S300000x9x1 (![0, 1] : Fin 2 → Fin S300000x9x1.rank)
  shapeCasts_S300000x9x64_S300000x576 : S300000x9x64.ShapeCasts S300000x576
  gather_S100000x64_S300000x9x1_S300000x9x64_2_0_n_n_0_2_164_wf : GatherDims.WF S100000x64 S300000x9x1 S300000x9x64 [2] [0] [] [0] [] 2 ![1, 64]
  dot_S300000x576_S576x64_S300000x64_1_0_0_1_n_n_wf : DotDims.WF S300000x576 S576x64 S300000x64 [1] [0] [0] [1] [] []

variable [Facts₀]

def gather_S100000x64_S300000x9x1_S300000x9x64_2_0_n_n_0_2_164 : GatherDims S100000x64 S300000x9x1 S300000x9x64 where
  offsetDims := [2]
  collapsedSliceDims := [0]
  operandBatchingDims := []
  startIndicesBatchingDims := []
  startIndexMap := [0]
  indexVectorDim := 2
  sliceSizes := ![1, 64]
  wf := gather_S100000x64_S300000x9x1_S300000x9x64_2_0_n_n_0_2_164_wf
def dot_S300000x576_S576x64_S300000x64_1_0_0_1_n_n : DotDims S300000x576 S576x64 S300000x64 where
  lhsContracting := [1]
  rhsContracting := [0]
  lhsNonContracting := [0]
  rhsNonContracting := [1]
  lhsBatch := []
  rhsBatch := []
  wf := dot_S300000x576_S576x64_S300000x64_1_0_0_1_n_n_wf

class Facts : Prop extends Facts₀ where

variable [Facts]
-- ==== Proof.Spec.lean ====
/-
  The two arrangements of the computation, index by index on the extended reals, over literal shapes.

  Both programs normalise a table x[100000, 64] group by group (32 groups of 2 adjacent columns, each group's
  statistics taken over all 100000 rows and its 2 columns: 200000 entries), apply a per-column scale gamma and shift beta,
  clamp below at zero, gather rows of the result through an index table, flatten 9 gathered rows of 64 entries into one row
  of 576 and multiply by a weight matrix [576, 64].

  The kernel's arrangement: column sums S[c] = sum_n x[n,c] and Q[c] = sum_n x[n,c]^2; per group
  mean = (S[2g] + S[2g+1]) / 200000, var = (Q[2g] + Q[2g+1]) / 200000 - mean^2, s = rsqrt(var + eps);
  y[n,c] = max(x[n,c] * (gamma[c] * s) + (beta[c] - (mean * gamma[c]) * s), 0).

  The reference's arrangement: mean = (sum over the group's 200000 entries) / 200000,
  var = (sum of squared deviations from the mean) / 200000, s = rsqrt(var + eps);
  y[n,c] = max(((x[n,c] - mean) * s) * gamma[c] + beta[c], 0).
-/
import Idealize.ShloMosaic.PureOps.Ideal
import Idealize.ShloMosaic.Lib.ValueIdx

noncomputable section

namespace Cert.Spec

open Idealize.ShloMosaic Idealize.ShloMosaic.ValueIdx

/-- The float words the two programs spell, read as extended reals: +0.0, 200000.0 and the f32 nearest 1e-5. -/
def z32 : EReal := Ideal.ofBits .f32 0x00000000#32
def cnt32 : EReal := Ideal.ofBits .f32 0x48435000#32
def eps32 : EReal := Ideal.ofBits .f32 0x3727C5AC#32

/-- Column `2g + j`: member `j` of group `g`. -/
def col (g : Fin 32) (j : Fin 2) : Fin 64 := ⟨2 * g.val + j.val, by omega⟩
/-- The group of column `c`. -/
def grp (c : Fin 64) : Fin 32 := ⟨c.val / 2, by omega⟩

abbrev Tab := (⟨2, ![100000, 64]⟩ : Shape).Idx → EReal
abbrev Vec64 := (⟨1, ![64]⟩ : Shape).Idx → EReal
abbrev Row64 := (⟨2, ![1, 64]⟩ : Shape).Idx → EReal
abbrev GMat := (⟨2, ![300000, 576]⟩ : Shape).Idx → EReal
abbrev WMat := (⟨2, ![576, 64]⟩ : Shape).Idx → EReal
abbrev OMat := (⟨2, ![300000, 64]⟩ : Shape).Idx → EReal

/-! ## The kernel's arrangement -/

/-- Column sums over all rows, as a [1, 64] row. -/
def colSum (x : Tab) : Row64 := fun i => ∑ n : Fin 100000, x (ix2 n (i 1))
/-- Column sums of squares over all rows, as a [1, 64] row. -/
def colSumSq (x : Tab) : Row64 := fun i => ∑ n : Fin 100000, x (ix2 n (i 1)) * x (ix2 n (i 1))

/-- A group's mean from the column sums. -/
def meanK (S : Row64) (g : Fin 32) : EReal := Ideal.div (z32 + ∑ j : Fin 2, S (ix2 0 (col g j))) cnt32
/-- A group's variance as mean of squares less squared mean. -/
def varK (S Q : Row64) (g : Fin 32) : EReal :=
  Ideal.div (z32 + ∑ j : Fin 2, Q (ix2 0 (col g j))) cnt32 - meanK S g * meanK S g
/-- A group's reciprocal standard deviation. -/
def sK (S Q : Row64) (g : Fin 32) : EReal := Ideal.rsqrt (varK S Q g + eps32)
/-- The per-column scale row: gamma times the group's reciprocal deviation. -/
def scaleK (S Q : Row64) (γ : Vec64) : Row64 := fun i => γ (ix1 (i 1)) * sK S Q (grp (i 1))
/-- The per-column shift row: beta less mean times gamma times the reciprocal deviation. -/
def shiftK (S Q : Row64) (γ β : Vec64) : Row64 :=
  fun i => β (ix1 (i 1)) - (meanK S (grp (i 1)) * γ (ix1 (i 1))) * sK S Q (grp (i 1))
/-- Scale, shift and clamp at zero, entry by entry, the scale and shift rows broadcast down the rows. -/
def affRelu (x : Tab) (a b : Row64) : Tab := fun i => max (x i * a (ix2 0 (i 1)) + b (ix2 0 (i 1))) z32
/-- The kernel's normalised table. -/
def YK (x : Tab) (γ β : Vec64) : Tab :=
  affRelu x (scaleK (colSum x) (colSumSq x) γ) (shiftK (colSum x) (colSumSq x) γ β)

/-! ## The reference's arrangement -/

/-- A group's mean over its 200000 entries (row, member). -/
def meanR (x : Tab) (g : Fin 32) : EReal :=
  Ideal.div (z32 + ∑ p : Fin 100000 × Fin 2, x (ix2 p.1 (col g p.2))) cnt32
/-- A group's variance as the mean of the squared deviations. -/
def varR (x : Tab) (g : Fin 32) : EReal :=
  Ideal.div (z32 + ∑ p : Fin 100000 × Fin 2,
    (x (ix2 p.1 (col g p.2)) - meanR x g) * (x (ix2 p.1 (col g p.2)) - meanR x g)) cnt32
/-- A group's reciprocal standard deviation. -/
def sR (x : Tab) (g : Fin 32) : EReal := Ideal.rsqrt (varR x g + eps32)
/-- The reference's normalised table. -/
def YR (x : Tab) (γ β : Vec64) : Tab :=
  fun i => max (((x i - meanR x (grp (i 1))) * sR x (grp (i 1))) * γ (ix1 (i 1)) + β (ix1 (i 1))) z32

/-! ## The product with the weights -/

/-- Row `i 0` of the gathered matrix times column `i 1` of the weights. -/
def mm (G : GMat) (w : WMat) : OMat := fun i => ∑ k : Fin 576, G (ix2 (i 0) k) * w (ix2 k (i 1))

end Cert.Spec

end
-- ==== Proof.Region0.lean ====
/-
  The first kernel region, read as a value on the extended reals: a grid accumulator. Over a grid of 20 points, point t
  reads rows 5000 t … 5000 t + 4999 of the table x and adds the block's column sums (and the column sums of its squares) to
  two [1, 64] rows that stay in place from point to point: the first point resets them to zero, and only the last point
  writes them back. After point n the rows hold the sums over the first 5000 (n + 1) rows (induction on the point: addition
  on the extended reals is commutative and associative, the zero word is zero), so after the last point they hold the
  sums over all 100000 rows.
-/
import proofs.«178124_j25400436588659_1_alg».proof.Proof.Gen.KernelIdeal.Frame
import proofs.«178124_j25400436588659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-! ## What each control case leaves in the two accumulator rows -/

section Pieces

variable {F : FTy → Type} [FloatOps F]

/-- The zero offsets of a whole-buffer rectangle, as the constant function. -/
theorem hz : (![0, 0] : Fin 2 → Nat) = fun _ => 0 := funext fun a => by fin_cases a <;> rfl

/-- At a later point the first row becomes the row before plus the block's column sums. -/
theorem later_row1 (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S5000x64 .f32) (xo1 xo2 : Vec F S1x64 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero (S := S1x64) hz]
  simp only [View.readAt_eq_ld, h1.read_unread, h2.read_unread, View.ld_unit_zero (S := S5000x64) hz,
    View.ld_unit_zero (S := S1x64) hz]

/-- At a later point the second row becomes the row before plus the block's column sums of squares. -/
theorem later_row2 (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S5000x64 .f32) (xo1 xo2 : Vec F S1x64 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero (S := S1x64) hz]
  simp only [View.readAt_eq_ld, h1.read_unread, h3.read_unread, View.ld_unit_zero (S := S5000x64) hz,
    View.ld_unit_zero (S := S1x64) hz]

/-- At the first point the first row is reset to the zero row and then takes the block's column sums. -/
theorem first_row1 (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S5000x64 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S5000x64) hz]

/-- At the first point the second row is reset to the zero row and then takes the block's column sums of squares. -/
theorem first_row2 (c : Dev nD) (i : grid0.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S5000x64 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S5000x64) hz]

end Pieces

/-! ## The rows' arithmetic at a column, on the extended reals -/

/-- The reset row is zero everywhere. -/
theorem zero_row1 (j : S1x64.Idx) : k0_pay1 (F := Ideal) j = 0 := by
  unfold k0_pay1
  exact Ideal.ofBits_zero_f32

theorem zero_row2 (j : S1x64.Idx) : k0_pay2 (F := Ideal) j = 0 := by
  unfold k0_pay2
  exact Ideal.ofBits_zero_f32

/-- Row r, column q of a block, as the index the reduction over the rows inserts. -/
theorem lift_eq (q : Fin 64) (r : Fin 5000) : reduces_S5000x64_S64.lift (ix1 q) r = ix2 r q := by
  funext a
  match a with
  | ⟨0, _⟩ => rfl
  | ⟨1, _⟩ => rfl

/-- The updated first row at column q: the row before plus the block's column q summed over its 5000 rows. -/
theorem sum_step (x : Vec Ideal S5000x64 .f32) (acc : Vec Ideal S1x64 .f32) (u : Fin 1) (q : Fin 64) :
    k0_pay3 (F := Ideal) x acc (ix2 u q) = acc (ix2 u q) + ∑ r : Fin 5000, x (ix2 r q) := by
  unfold k0_pay3
  dsimp only
  refine congrArg₂ (· + ·) (congrFun (shapeCast_self acc shapeCasts_S1x64_S1x64) (ix2 u q)) ?_
  refine (shapeCast_a_1a_apply _ shapeCasts_S64_S1x64 u q).trans ?_
  refine (Ideal.multiReduction_add_single x _ reduces_S5000x64_S64 _ _ (ix1 q)).trans ?_
  exact Finset.sum_congr rfl fun r _ => congrArg x (lift_eq q r)

/-- The updated second row at column q: the row before plus the squares of the block's column q summed over its rows. -/
theorem sumsq_step (x : Vec Ideal S5000x64 .f32) (acc : Vec Ideal S1x64 .f32) (u : Fin 1) (q : Fin 64) :
    k0_pay4 (F := Ideal) x acc (ix2 u q) = acc (ix2 u q) + ∑ r : Fin 5000, x (ix2 r q) * x (ix2 r q) := by
  unfold k0_pay4
  dsimp only
  refine congrArg₂ (· + ·) (congrFun (shapeCast_self acc shapeCasts_S1x64_S1x64) (ix2 u q)) ?_
  refine (shapeCast_a_1a_apply _ shapeCasts_S64_S1x64 u q).trans ?_
  refine (Ideal.multiReduction_add_single (mulf x x) _ reduces_S5000x64_S64 _ _ (ix1 q)).trans ?_
  refine Finset.sum_congr rfl fun r _ => ?_
  rw [lift_eq q r]
  rfl

/-! ## The table the region reads, block by block -/

variable (V : (c : Dev nD) → (b : Ref sig .tc) → Buf (Elt Ideal) ((c : Thread nD τ).loc b))

/-- The table, at its literal type. -/
abbrev tab (c : Dev nD) : Cert.Spec.Tab := V c main_arg0

/-- The block of 5000 rows the region reads at point t, at its literal type. -/
abbrev blk (c : Dev nD) (t : Fin cfg0.N) : Vec Ideal S5000x64 .f32 := iblk0 V c 0 t

/-- Row p of column q of a table, and zero past its last row: the summand of the sums over ranges of rows. -/
def rowAt (X : Cert.Spec.Tab) (q : Fin 64) (p : ℕ) : EReal := if h : p < 100000 then X (ix2 ⟨p, h⟩ q) else 0

theorem rowAt_lt (X : Cert.Spec.Tab) (q : Fin 64) (p : ℕ) (h : p < 100000) : rowAt X q p = X (ix2 ⟨p, h⟩ q) := dif_pos h

/-- Block t is rows 5000 t to 5000 t + 4999 of the table, all 64 columns. -/
theorem blk_apply (c : Dev nD) (t : Fin cfg0.N) (r : Fin 5000) (q : Fin 64) :
    blk V c t (ix2 r q) = rowAt (tab V c) q (5000 * t.val + r.val) := by
  have hN : cfg0.N = 20 := N_0
  have hlt : 5000 * t.val + r.val < 100000 := by have := t.isLt; have := r.isLt; omega
  have hi : win0_0.index t 0 = t.val ∧ win0_0.index t 1 = 0 :=
    (by decide +kernel : ∀ t : Fin grid0.N, win0_0.index t 0 = t.val ∧ win0_0.index t 1 = 0) t
  rw [rowAt_lt _ _ _ hlt]
  unfold blk iblk0
  rw [View.read_apply]
  show V c main_arg0 _ = V c main_arg0 _
  congr 1
  funext a
  apply Fin.ext
  match a with
  | ⟨0, _⟩ => show win0_0.index t 0 * 5000 + 1 * r.val = 5000 * t.val + r.val; rw [hi.1]; omega
  | ⟨1, _⟩ => show win0_0.index t 1 * 64 + 1 * q.val = q.val; rw [hi.2]; omega

/-- So the block's column q, summed over its rows, is the table's column q summed over those 5000 rows. -/
theorem blk_sum (c : Dev nD) (t : Fin cfg0.N) (q : Fin 64) :
    ∑ r : Fin 5000, blk V c t (ix2 r q) = ∑ r ∈ Finset.range 5000, rowAt (tab V c) q (5000 * t.val + r) := by
  rw [Finset.sum_range]
  exact Finset.sum_congr rfl fun r _ => blk_apply V c t r q

theorem blk_sumsq (c : Dev nD) (t : Fin cfg0.N) (q : Fin 64) :
    ∑ r : Fin 5000, blk V c t (ix2 r q) * blk V c t (ix2 r q)
      = ∑ r ∈ Finset.range 5000, rowAt (tab V c) q (5000 * t.val + r) * rowAt (tab V c) q (5000 * t.val + r) := by
  rw [Finset.sum_range]
  exact Finset.sum_congr rfl fun r _ => by rw [blk_apply V c t r q]

/-! ## The accumulation over the points -/

/-- After point n the two rows hold, at column q, the sums over the table's first 5000 (n + 1) rows of the entries and
    of their squares: the zero row plus the first block's sums at point 0, the row before plus block n's sums after. -/
theorem rows_after (c : Dev nD) : ∀ (n : ℕ) (h : n < cfg0.N) (u : Fin 1) (q : Fin 64),
    (outsAt0 V c n h).1 (ix2 u q) = ∑ p ∈ Finset.range (5000 * (n + 1)), rowAt (tab V c) q p
    ∧ (outsAt0 V c n h).2 (ix2 u q)
        = ∑ p ∈ Finset.range (5000 * (n + 1)), rowAt (tab V c) q p * rowAt (tab V c) q p
  | 0, h, u, q => by
    rw [outsAt0_A V c ⟨0, h⟩ rfl]
    dsimp only
    constructor
    · refine (congrFun (first_row1 (F := Ideal) c (grid0.coords ⟨0, h⟩) (ms0_0 ⟨0, h⟩) (hs0_0 ⟨0, h⟩) (ms0_1 ⟨0, h⟩)
        (hs0_1 ⟨0, h⟩) (ms0_2 ⟨0, h⟩) (hs0_2 ⟨0, h⟩) ((hcond0_0 ⟨0, h⟩).mpr rfl) (blk V c ⟨0, h⟩)) (ix2 u q)).trans ?_
      refine (sum_step (blk V c ⟨0, h⟩) (k0_pay1 (F := Ideal)) u q).trans ?_
      rw [zero_row1, zero_add, blk_sum]
      simp only [Nat.mul_zero, Nat.zero_add, Nat.mul_one]
    · refine (congrFun (first_row2 (F := Ideal) c (grid0.coords ⟨0, h⟩) (ms0_0 ⟨0, h⟩) (hs0_0 ⟨0, h⟩) (ms0_1 ⟨0, h⟩)
        (hs0_1 ⟨0, h⟩) (ms0_2 ⟨0, h⟩) (hs0_2 ⟨0, h⟩) ((hcond0_0 ⟨0, h⟩).mpr rfl) (blk V c ⟨0, h⟩)) (ix2 u q)).trans ?_
      refine (sumsq_step (blk V c ⟨0, h⟩) (k0_pay2 (F := Ideal)) u q).trans ?_
      rw [zero_row2, zero_add, blk_sumsq]
      simp only [Nat.mul_zero, Nat.zero_add, Nat.mul_one]
  | n + 1, h, u, q => by
    have hN : cfg0.N = 20 := N_0
    have hB : ¬(⟨n + 1, h⟩ : Fin cfg0.N).val % 20 = 0 := by dsimp only; omega
    have ih := rows_after c n (Nat.lt_of_succ_lt h) u q
    have hsplit : 5000 * (n + 1 + 1) = 5000 * (n + 1) + 5000 := by omega
    rw [outsAt0_B V c ⟨n + 1, h⟩ hB]
    dsimp only
    constructor
    · refine (congrFun (later_row1 (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩)
        (fun hc => hB ((hcond0_0 ⟨n + 1, h⟩).mp hc)) (blk V c ⟨n + 1, h⟩)
        (outsAt0 V c n (Nat.lt_of_succ_lt h)).1 (outsAt0 V c n (Nat.lt_of_succ_lt h)).2) (ix2 u q)).trans ?_
      refine (sum_step (blk V c ⟨n + 1, h⟩) (outsAt0 V c n (Nat.lt_of_succ_lt h)).1 u q).trans ?_
      rw [ih.1, blk_sum, hsplit, Finset.sum_range_add]
    · refine (congrFun (later_row2 (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩)
        (fun hc => hB ((hcond0_0 ⟨n + 1, h⟩).mp hc)) (blk V c ⟨n + 1, h⟩)
        (outsAt0 V c n (Nat.lt_of_succ_lt h)).1 (outsAt0 V c n (Nat.lt_of_succ_lt h)).2) (ix2 u q)).trans ?_
      refine (sumsq_step (blk V c ⟨n + 1, h⟩) (outsAt0 V c n (Nat.lt_of_succ_lt h)).2 u q).trans ?_
      rw [ih.2, blk_sumsq, hsplit, Finset.sum_range_add]

/-! ## The write-back at the last point, and the result arrays -/

/-- The last of the 20 points, the only one after which the rows are written back. -/
abbrev tLast : Fin cfg0.N := ⟨19, by decide⟩

/-- Summed over all 100000 rows, the range sums are the sums of the specification. -/
theorem sum_all (X : Cert.Spec.Tab) (q : Fin 64) (g : EReal → EReal) :
    ∑ p ∈ Finset.range 100000, g (rowAt X q p) = ∑ n : Fin 100000, g (X (ix2 n q)) := by
  rw [Finset.sum_range]
  exact Finset.sum_congr rfl fun n _ => congrArg g (rowAt_lt X q n.val n.isLt)

/-- After the last point the first row is the table's column sums. -/
theorem row1_last (c : Dev nD) : (outsAt0 V c 19 tLast.isLt).1 = Cert.Spec.colSum (V c main_arg0) := by
  funext j
  obtain ⟨u, q, rfl⟩ : ∃ (u : Fin 1) (q : Fin 64), j = ix2 u q := ⟨j 0, j 1, eq_ix2 j⟩
  refine ((rows_after V c 19 tLast.isLt u q).1).trans ?_
  exact sum_all (tab V c) q id

/-- After the last point the second row is the table's column sums of squares. -/
theorem row2_last (c : Dev nD) : (outsAt0 V c 19 tLast.isLt).2 = Cert.Spec.colSumSq (V c main_arg0) := by
  funext j
  obtain ⟨u, q, rfl⟩ : ∃ (u : Fin 1) (q : Fin 64), j = ix2 u q := ⟨j 0, j 1, eq_ix2 j⟩
  refine ((rows_after V c 19 tLast.isLt u q).2).trans ?_
  exact sum_all (tab V c) q fun y => y * y

/-- The one write-back of the first row writes the column sums: the row's one block, read at zero offsets, is the array. -/
theorem flushed_row1 (c : Dev nD) (t : Fin cfg0.N) (hf : (cfg0.win 1).flush t = true) :
    (dat0 V c).flushed 1 t = ((cfg0.win 1).blk t).view.read (Elt Ideal) (Cert.Spec.colSum (V c main_arg0)) := by
  have hN : cfg0.N = 20 := N_0
  have h19 : t.val = 19 := by have := (flush0_1 t).mp hf; have := t.isLt; omega
  obtain rfl : t = tLast := Fin.ext h19
  show (cfg0.win 1).cut (grid0.coords tLast) ((dat0 V c).after 1 tLast) = _
  rw [after0_1]
  show (cfg0.win 1).cut (grid0.coords tLast) (outsAt0 V c 19 tLast.isLt).1 = _
  rw [row1_last]
  have hz' : (fun a => win0_1.index tLast a * main_v0_0.ty.shape.size a) = fun _ => 0 :=
    funext fun a => by fin_cases a <;> decide
  exact (Memref.read_access_unit_zero (Elt Ideal) main_v0_0 hz' (fun a => by rw [congrFun hz' a]; simp)
    (Cert.Spec.colSum (V c main_arg0))).symm

/-- The one write-back of the second row writes the column sums of squares. -/
theorem flushed_row2 (c : Dev nD) (t : Fin cfg0.N) (hf : (cfg0.win 2).flush t = true) :
    (dat0 V c).flushed 2 t = ((cfg0.win 2).blk t).view.read (Elt Ideal) (Cert.Spec.colSumSq (V c main_arg0)) := by
  have hN : cfg0.N = 20 := N_0
  have h19 : t.val = 19 := by have := (flush0_2 t).mp hf; have := t.isLt; omega
  obtain rfl : t = tLast := Fin.ext h19
  show (cfg0.win 2).cut (grid0.coords tLast) ((dat0 V c).after 2 tLast) = _
  rw [after0_2]
  show (cfg0.win 2).cut (grid0.coords tLast) (outsAt0 V c 19 tLast.isLt).2 = _
  rw [row2_last]
  have hz' : (fun a => win0_2.index tLast a * main_v0_1.ty.shape.size a) = fun _ => 0 :=
    funext fun a => by fin_cases a <;> decide
  exact (Memref.read_access_unit_zero (Elt Ideal) main_v0_1 hz' (fun a => by rw [congrFun hz' a]; simp)
    (Cert.Spec.colSumSq (V c main_arg0))).symm

/-- After the first region its first result array holds the column sums of the table the region reads. -/
theorem final_sum (c : Dev nD) : (dat0 (F := Ideal) V c).arrAt 1 cfg0.N = Cert.Spec.colSum (V c main_arg0) :=
  (dat0 V c).arrAt_eq_of_cover 1 (Cert.Spec.colSum (V c main_arg0)) (flushed_row1 V c) fun i =>
    ⟨tLast, (flush0_1 tLast).mpr rfl, by
      show i ∈ ((View.whole main_v0_0).slice (win0_1.rect tLast)).set
      rw [View.set_slice_whole, Rect.mem_set_unit]
      intro a
      have hoff : win0_1.index tLast a * win0_1.size a = 0 :=
        (by decide : ∀ a : Fin 2, win0_1.index tLast a * win0_1.size a = 0) a
      have hext : win0_1.xsize (grid0.coords tLast) a = main_v0_0.ty.shape.size a :=
        (by decide : ∀ a : Fin 2, win0_1.xsize (grid0.coords tLast) a = main_v0_0.ty.shape.size a) a
      rw [hoff, hext, Nat.zero_add]
      exact ⟨Nat.zero_le _, (i a).isLt⟩⟩

/-- After the first region its second result array holds the column sums of squares. -/
theorem final_sumsq (c : Dev nD) : (dat0 (F := Ideal) V c).arrAt 2 cfg0.N = Cert.Spec.colSumSq (V c main_arg0) :=
  (dat0 V c).arrAt_eq_of_cover 2 (Cert.Spec.colSumSq (V c main_arg0)) (flushed_row2 V c) fun i =>
    ⟨tLast, (flush0_2 tLast).mpr rfl, by
      show i ∈ ((View.whole main_v0_1).slice (win0_2.rect tLast)).set
      rw [View.set_slice_whole, Rect.mem_set_unit]
      intro a
      have hoff : win0_2.index tLast a * win0_2.size a = 0 :=
        (by decide : ∀ a : Fin 2, win0_2.index tLast a * win0_2.size a = 0) a
      have hext : win0_2.xsize (grid0.coords tLast) a = main_v0_1.ty.shape.size a :=
        (by decide : ∀ a : Fin 2, win0_2.xsize (grid0.coords tLast) a = main_v0_1.ty.shape.size a) a
      rw [hoff, hext, Nat.zero_add]
      exact ⟨Nat.zero_le _, (i a).isLt⟩⟩

end Cert.KernelIdeal.Region0
end
-- ==== Proof.Region1.lean ====
/-
  The second kernel region, read as a value on the extended reals: over a grid of 20 points, point t reads rows
  5000 t … 5000 t + 4999 of the table x and the whole scale and shift rows a, b : [1, 64], and writes to the same rows of
  its result max(x[n, c] * a[0, c] + b[0, c], 0) (the rows broadcast down the block; the change of float format the
  identity). Each written block is the restriction of one whole-array function, and the 20 blocks tile the array, so the
  result array after the region is that function.
-/
import proofs.«178124_j25400436588659_1_alg».proof.Proof.Gen.KernelIdeal.Frame
import proofs.«178124_j25400436588659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block rectangle, as the constant function. -/
theorem zero_offsets : (![0, 0] : Fin 2 → Nat) = fun _ => 0 := funext fun a => by fin_cases a <;> rfl

/-- A [1, 64] row broadcast down 5000 rows, read at row p and column q, is the row's entry at column q. -/
theorem row_broadcast_apply (x : Vec Ideal S1x64 .f32) (p : Fin 5000) (q : Fin 64) :
    broadcastTo S5000x64 x broadcasts_S1x64_S5000x64 (ix2 p q) = x (ix2 0 q) := by
  refine broadcastTo_apply x broadcasts_S1x64_S5000x64 (ix2 p q) (ix2 0 q) fun a => ?_
  match a with
  | ⟨0, _⟩ => rfl
  | ⟨1, _⟩ => rfl

/-- The stored block at row p and column q: the input entry times the scale row's entry plus the shift row's entry,
    clamped below at zero (the narrowing to bf16 changes no extended real). -/
theorem payload_apply (x0 : Vec Ideal S5000x64 .f32) (x1 x2 : Vec Ideal S1x64 .f32) (p : Fin 5000) (q : Fin 64) :
    k1_pay1 x0 x1 x2 (ix2 p q) = max (x0 (ix2 p q) * x1 (ix2 0 q) + x2 (ix2 0 q)) Cert.Spec.z32 := by
  unfold k1_pay1
  simp only [shapeCast_self]
  rw [truncf_apply, maximumf_apply, addf_apply, mulf_apply, broadcast_apply, row_broadcast_apply, row_broadcast_apply]
  rfl

/-- The index maps over the 20 grid points: the table's block and the result's block are block (t, 0) of their arrays,
    the scale and shift rows are block (0, 0) of theirs. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 5000 t + p of the whole table. -/
def rowAt (t : Fin cfg1.N) (p : Fin 5000) : Fin 100000 :=
  ⟨t.val * 5000 + p.val, by have := lt_of_lt_of_eq t.isLt (show cfg1.N = 20 from N_1); have := p.isLt; omega⟩

/-- Where the table's block at point t sits in the table: row p of the block is row 5000 t + p, the columns as they are. -/
theorem table_block_emb (t : Fin cfg1.N) (p : Fin 5000) (q : Fin 64) :
    ((cfg1.win 0).blk t).view.emb (ix2 p q) = (ix2 (rowAt t p) q : S100000x64.Idx) := by
  obtain ⟨e0, e1, -⟩ := index_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- Where the result's block at point t sits in the result: the same rows and columns as the table's block. -/
theorem result_block_emb (t : Fin cfg1.N) (p : Fin 5000) (q : Fin 64) :
    ((cfg1.win 3).blk t).view.emb (ix2 p q) = (ix2 (rowAt t p) q : S100000x64.Idx) := by
  obtain ⟨-, -, -, -, -, -, e6, e7⟩ := index_facts t
  funext a; apply Fin.ext
  match a with
  | ⟨0, _⟩ => show win1_3.index t (0 : Fin 2) * 5000 + 1 * p.val = t.val * 5000 + p.val; omega
  | ⟨1, _⟩ => show win1_3.index t (1 : Fin 2) * 64 + 1 * q.val = q.val; omega

/-- The scale row's block at every point is the whole row. -/
theorem scale_block_emb (t : Fin cfg1.N) (q : Fin 64) :
    ((cfg1.win 1).blk t).view.emb (ix2 (0 : Fin 1) q) = (ix2 (0 : Fin 1) q : S1x64.Idx) := by
  obtain ⟨-, -, e2, e3, -⟩ := index_facts t
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- The shift row's block at every point is the whole row. -/
theorem shift_block_emb (t : Fin cfg1.N) (q : Fin 64) :
    ((cfg1.win 2).blk t).view.emb (ix2 (0 : Fin 1) q) = (ix2 (0 : Fin 1) q : S1x64.Idx) := by
  obtain ⟨-, -, -, -, e4, e5, -⟩ := index_facts t
  funext a; apply Fin.ext
  match a with
  | ⟨0, _⟩ => show win1_2.index t (0 : Fin 2) * 1 + 1 * 0 = 0; omega
  | ⟨1, _⟩ => show win1_2.index t (1 : Fin 2) * 64 + 1 * q.val = q.val; omega

variable (V : (c : Dev nD) → (b : Ref sig .tc) → Buf (Elt Ideal) ((c : Thread nD τ).loc b))

/-- The table's block at point t, entry by entry. -/
theorem table_block_apply (c : Dev nD) (t : Fin cfg1.N) (p : Fin 5000) (q : Fin 64) :
    (iblk1 V c 0 t : Vec Ideal S5000x64 .f32) (ix2 p q) = (V c main_arg0 : S100000x64.Idx → EReal) (ix2 (rowAt t p) q) := by
  show (V c main_arg0 : S100000x64.Idx → EReal) (((cfg1.win 0).blk t).view.emb (ix2 p q)) = _
  rw [table_block_emb]

/-- The scale row's block at point t, entry by entry. -/
theorem scale_block_apply (c : Dev nD) (t : Fin cfg1.N) (q : Fin 64) :
    (iblk1 V c 1 t : Vec Ideal S1x64 .f32) (ix2 (0 : Fin 1) q) = (V c main_v19 : S1x64.Idx → EReal) (ix2 (0 : Fin 1) q) := by
  show (V c main_v19 : S1x64.Idx → EReal) (((cfg1.win 1).blk t).view.emb (ix2 (0 : Fin 1) q)) = _
  rw [scale_block_emb]

/-- The shift row's block at point t, entry by entry. -/
theorem shift_block_apply (c : Dev nD) (t : Fin cfg1.N) (q : Fin 64) :
    (iblk1 V c 2 t : Vec Ideal S1x64 .f32) (ix2 (0 : Fin 1) q) = (V c main_v23 : S1x64.Idx → EReal) (ix2 (0 : Fin 1) q) := by
  show (V c main_v23 : S1x64.Idx → EReal) (((cfg1.win 2).blk t).view.emb (ix2 (0 : Fin 1) q)) = _
  rw [shift_block_emb]

/-- What point t writes back is block t of the whole-array function: rows 5000 t … 5000 t + 4999, all 64 columns. -/
theorem flushed_eq (c : Dev nD) (t : Fin cfg1.N) :
    (dat1 (F := Ideal) V c).flushed 3 t
      = ((cfg1.win 3).blk t).view.read (Elt Ideal) (Cert.Spec.affRelu (V c main_arg0) (V c main_v19) (V c main_v23)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets]
  funext j
  obtain ⟨p, q, rfl⟩ : ∃ (p : Fin 5000) (q : Fin 64), j = ix2 p q := ⟨j 0, j 1, eq_ix2 j⟩
  refine (payload_apply (iblk1 V c 0 t) (iblk1 V c 1 t) (iblk1 V c 2 t) p q).trans ?_
  rw [table_block_apply V c t p q, scale_block_apply V c t q, shift_block_apply V c t q]
  show _ = Cert.Spec.affRelu (V c main_arg0) (V c main_v19) (V c main_v23) (((cfg1.win 3).blk t).view.emb (ix2 p q))
  rw [result_block_emb]
  rfl

/-- An index of the result is in point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v24).slice (win1_3.rect t)).set ↔ _
  rw [View.set_slice_whole, Rect.mem_set_unit]
  exact Iff.rfl

/-- Every entry of the result is in some point's block: row r is in the block of point r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, e6, e7⟩ := index_facts t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the second region its result array holds the table scaled, shifted and clamped at zero, entry by entry. -/
theorem final_relu (c : Dev nD) :
    (dat1 (F := Ideal) V c).arrAt 3 cfg1.N = Cert.Spec.affRelu (V c main_arg0) (V c main_v19) (V c main_v23) :=
  (dat1 (F := Ideal) V c).arrAt_eq_of_cover 3 (Cert.Spec.affRelu (V c main_arg0) (V c main_v19) (V c main_v23))
    (fun t _ => flushed_eq V c t) cover

end Cert.KernelIdeal.Region1
end
-- ==== Proof.Region2.lean ====
/-
  The third kernel region, read as a value on the extended reals: over a grid of 30 points, point t reads rows
  10000 t … 10000 t + 9999 of the gathered matrix A : [300000, 576] and the whole weight matrix B : [576, 64], and writes to
  the same rows of its result the product of the two blocks into a zero accumulator, which on the extended reals is the
  plain contraction: entry (r, q) is the sum over k of A[r, k] * B[k, q]. Each written block is the restriction of the
  whole product, and the 30 blocks tile the array.
-/
import proofs.«178124_j25400436588659_1_alg».proof.Proof.Gen.KernelIdeal.Frame
import proofs.«178124_j25400436588659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

/-! ## The contraction's index maps, axis by axis

The product contracts axis 1 of its left operand with axis 0 of its right one: the left index keeps the
result's row and takes the contraction coordinate as its column, the right index takes the contraction
coordinate as its row and keeps the result's column. -/

theorem lhs_row (i : S10000x64.Idx) (q : dot_S10000x576_S576x64_S10000x64_1_0_0_1_n_n.contr.Idx) :
    (dot_S10000x576_S576x64_S10000x64_1_0_0_1_n_n.lhsIdx i q 0).val = (i 0).val := by
  unfold DotDims.lhsIdx
  rw [dif_neg (show ¬(0 : Fin S10000x576.rank) ∈ dot_S10000x576_S576x64_S10000x64_1_0_0_1_n_n.lhsBatch by decide), dif_pos (show (0 : Fin S10000x576.rank) ∈ dot_S10000x576_S576x64_S10000x64_1_0_0_1_n_n.lhsNonContracting by decide)]
  rfl
theorem lhs_col (i : S10000x64.Idx) (q : dot_S10000x576_S576x64_S10000x64_1_0_0_1_n_n.contr.Idx) :
    (dot_S10000x576_S576x64_S10000x64_1_0_0_1_n_n.lhsIdx i q 1).val = (q ⟨0, by decide⟩).val :=
  dot_S10000x576_S576x64_S10000x64_1_0_0_1_n_n.lhsIdx_val_of_single rfl i q
theorem rhs_row (i : S10000x64.Idx) (q : dot_S10000x576_S576x64_S10000x64_1_0_0_1_n_n.contr.Idx) :
    (dot_S10000x576_S576x64_S10000x64_1_0_0_1_n_n.rhsIdx i q 0).val = (q ⟨0, by decide⟩).val :=
  dot_S10000x576_S576x64_S10000x64_1_0_0_1_n_n.rhsIdx_val_of_single rfl i q
theorem rhs_col (i : S10000x64.Idx) (q : dot_S10000x576_S576x64_S10000x64_1_0_0_1_n_n.contr.Idx) :
    (dot_S10000x576_S576x64_S10000x64_1_0_0_1_n_n.rhsIdx i q 1).val = (i 1).val := by
  unfold DotDims.rhsIdx
  rw [dif_neg (show ¬(1 : Fin S576x64.rank) ∈ dot_S10000x576_S576x64_S10000x64_1_0_0_1_n_n.rhsBatch by decide), dif_pos (show (1 : Fin S576x64.rank) ∈ dot_S10000x576_S576x64_S10000x64_1_0_0_1_n_n.rhsNonContracting by decide)]
  rfl

/-! ## One block's product at an entry -/

/-- Entry (p, q) of the body's result is row p of the left block against column q of the right block:
    the contraction into the zero accumulator is the plain sum over the 576 shared coordinates. -/
theorem block_product_apply (a : Vec Ideal S10000x576 .bf16) (b : Vec Ideal S576x64 .bf16) (p : Fin 10000) (q : Fin 64) :
    k2_pay1 (F := Ideal) a b (ix2 p q) = ∑ k : Fin 576, a (ix2 p k) * b (ix2 k q) := by
  unfold k2_pay1
  rw [shapeCast_self, shapeCast_self]
  refine (Ideal.matmul_constant_zero_apply (φ₁ := .bf16) (φ₂ := .bf16) dot_S10000x576_S576x64_S10000x64_1_0_0_1_n_n none a b (ix2 p q)).trans ?_
  rw [← Equiv.sum_comp (contrEquiv1 dot_S10000x576_S576x64_S10000x64_1_0_0_1_n_n 576 rfl rfl).symm]
  refine Finset.sum_congr rfl fun k _ => ?_
  have hk := contrEquiv1_symm_val dot_S10000x576_S576x64_S10000x64_1_0_0_1_n_n 576 rfl rfl k
  have el : dot_S10000x576_S576x64_S10000x64_1_0_0_1_n_n.lhsIdx (ix2 p q) ((contrEquiv1 dot_S10000x576_S576x64_S10000x64_1_0_0_1_n_n 576 rfl rfl).symm k) = ix2 p k := funext fun d => Fin.ext (by
    match d with
    | ⟨0, _⟩ => exact lhs_row _ _
    | ⟨1, _⟩ => exact (lhs_col _ _).trans hk)
  have er : dot_S10000x576_S576x64_S10000x64_1_0_0_1_n_n.rhsIdx (ix2 p q) ((contrEquiv1 dot_S10000x576_S576x64_S10000x64_1_0_0_1_n_n 576 rfl rfl).symm k) = ix2 k q := funext fun d => Fin.ext (by
    match d with
    | ⟨0, _⟩ => exact (rhs_row _ _).trans hk
    | ⟨1, _⟩ => exact rhs_col _ _)
  rw [el, er]

/-- Entry (r, q) of the whole product, over explicit coordinates. -/
theorem product_apply (G : Cert.Spec.GMat) (w : Cert.Spec.WMat) (r : Fin 300000) (q : Fin 64) :
    Cert.Spec.mm G w (ix2 r q) = ∑ k : Fin 576, G (ix2 r k) * w (ix2 k q) := rfl

/-! ## The thirty row blocks -/

theorem zero_offsets : (![0, 0] : Fin 2 → Nat) = fun _ => 0 := funext fun a => by fin_cases a <;> rfl

/-- The block index maps over the grid: at point t the left operand's and the result's blocks are row block t
    (column block 0), and the right operand's block is always the whole matrix. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Row p of the left block at point t is row 10000 t + p of the gathered matrix. -/
theorem left_block_apply (c : Dev nD) (t : Fin cfg2.N) (p : Fin 10000) (k : Fin 576) (r : Fin 300000)
    (hr : r.val = t.val * 10000 + p.val) :
    (iblk2 (F := Ideal) V c 0 t : Vec Ideal S10000x576 .bf16) (ix2 p k) = (V c main_v32 : S300000x576.Idx → EReal) (ix2 r k) := by
  obtain ⟨e0, e1, -, -, -, -⟩ := block_indices t
  unfold iblk2
  rw [View.read_apply]
  show V c main_v32 _ = V c main_v32 _
  congr 1
  funext a
  apply Fin.ext
  match a with
  | ⟨0, _⟩ => show win2_0.index t (0 : Fin 2) * 10000 + 1 * p.val = r.val; omega
  | ⟨1, _⟩ => show win2_0.index t (1 : Fin 2) * 576 + 1 * k.val = k.val; omega

/-- The right block at every point is the whole weight matrix. -/
theorem right_block_apply (c : Dev nD) (t : Fin cfg2.N) (k : Fin 576) (q : Fin 64) :
    (iblk2 (F := Ideal) V c 1 t : Vec Ideal S576x64 .bf16) (ix2 k q) = (V c main_v33 : S576x64.Idx → EReal) (ix2 k q) := by
  obtain ⟨-, -, e0, e1, -, -⟩ := block_indices t
  unfold iblk2
  rw [View.read_apply]
  show V c main_v33 _ = V c main_v33 _
  congr 1
  funext a
  apply Fin.ext
  match a with
  | ⟨0, _⟩ => show win2_1.index t (0 : Fin 2) * 576 + 1 * k.val = k.val; omega
  | ⟨1, _⟩ => show win2_1.index t (1 : Fin 2) * 64 + 1 * q.val = q.val; omega

/-- What point t writes back is block t of the whole product. -/
theorem flushed_eq (c : Dev nD) (t : Fin cfg2.N) :
    (dat2 (F := Ideal) V c).flushed 2 t = ((cfg2.win 2).blk t).view.read (Elt Ideal) (Cert.Spec.mm (V c main_v32) (V c main_v33)) := by
  show (cfg2.win 2).cut (grid2.coords t) ((dat2 V c).after 2 t) = _
  rw [after2_2]
  unfold out2_2
  rw [View.canon_unit_zero zero_offsets]
  simp only [View.ld_unit_zero (S := S10000x576) zero_offsets, View.ld_unit_zero (S := S576x64) zero_offsets]
  funext j
  obtain ⟨p, q, rfl⟩ : ∃ (p : Fin 10000) (q : Fin 64), j = ix2 p q := ⟨j 0, j 1, eq_ix2 j⟩
  obtain ⟨-, -, -, -, e0, e1⟩ := block_indices t
  have hrow : t.val * 10000 + p.val < 300000 := by
    have ht : t.val < 30 := lt_of_lt_of_eq t.isLt (N_2 : cfg2.N = 30)
    omega
  have hemb : ((cfg2.win 2).blk t).view.emb (ix2 p q) = (ix2 (⟨t.val * 10000 + p.val, hrow⟩ : Fin 300000) q : S300000x64.Idx) := by
    funext a
    apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  show k2_pay1 (F := Ideal) (iblk2 V c 0 t) (iblk2 V c 1 t) (ix2 p q) = Cert.Spec.mm (V c main_v32) (V c main_v33) (((cfg2.win 2).blk t).view.emb (ix2 p q))
  rw [hemb]
  refine (block_product_apply (iblk2 V c 0 t) (iblk2 V c 1 t) p q).trans ?_
  refine Eq.trans ?_ (product_apply (V c main_v32) (V c main_v33) ⟨t.val * 10000 + p.val, hrow⟩ q).symm
  refine Finset.sum_congr rfl fun k _ => ?_
  exact congrArg₂ (· * ·) (left_block_apply V c t p k ⟨t.val * 10000 + p.val, hrow⟩ rfl) (right_block_apply V c t k q)

/-- An index of the result array lies in point t's block iff each coordinate lies in the block's range on its axis. -/
theorem mem_block (t : Fin cfg2.N) (i : S300000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v34).slice (win2_2.rect t)).set ↔ _
  rw [View.set_slice_whole, Rect.mem_set_unit]
  exact Iff.rfl

/-- Row r of the result lies in the block of point r / 10000: the thirty blocks tile the array. -/
theorem blocks_cover (i : S300000x64.Idx) :
    ∃ t : Fin cfg2.N, (cfg2.win 2).flush t = true ∧ i ∈ ((cfg2.win 2).blk t).view.set := by
  have hi0 : (i 0).val < 300000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega : (i 0).val / 10000 < 30) (N_2 : cfg2.N = 30).symm⟩, rfl⟩
  obtain ⟨-, -, -, -, e0, e1⟩ := block_indices t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the third region its result array holds the product of the gathered matrix with the weights. -/
theorem final_mm (c : Dev nD) :
    (dat2 (F := Ideal) V c).arrAt 2 cfg2.N = Cert.Spec.mm (V c main_v32) (V c main_v33) :=
  (dat2 (F := Ideal) V c).arrAt_eq_of_cover 2 (Cert.Spec.mm (V c main_v32) (V c main_v33))
    (fun t _ => flushed_eq V c t) blocks_cover

end Cert.KernelIdeal.Region2
end
-- ==== Proof.Stretch1.lean ====
/-
  The host operations between the first and the second kernel region: from the column sums S and Q ([1, 64] rows) and the
  per-column gamma and beta to the scale row and the shift row the second region reads.

  Per group g of two adjacent columns: the group's sum is the pair sum of the row reshaped [32, 2]; mean = sum / 200000;
  var = sumsq / 200000 - mean * mean; s = rsqrt(var + eps). A per-group vector is repeated over the group's two columns by
  a broadcast [32] -> [32, 2] flattened to [64]. scale = gamma * rep(s); shift = beta - (rep(mean) * gamma) * rep(s); both
  reshaped to [1, 64] rows. The argument arrays are not written.
-/
import proofs.«178124_j25400436588659_1_alg».proof.Proof.Gen.KernelIdeal.Frame
import proofs.«178124_j25400436588659_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo
variable {F : FTy → Type} [FloatOps F]

/-- Group sums of a [1, 64] row: its [32, 2] reshape reduced along the pair axis from +0.0. -/
def grpRed (r : FVec F S1x64 .f32) : FVec F S32 .f32 :=
  Host.reduceAdd (shapeCast S32x2 r shapeCasts_S1x64_S32x2) (constant S_ .f32 0x00000000#32) reducesTo_S32x2_S32_d1 h_S_
def cntV : FVec F S32 .f32 := broadcastInDim S32 ![] bcast_S_S32 (constant S_ .f32 0x48435000#32)
def meanV (S : FVec F S1x64 .f32) : FVec F S32 .f32 := Host.divf (grpRed S) cntV
def varV (S Q : FVec F S1x64 .f32) : FVec F S32 .f32 := subf (Host.divf (grpRed Q) cntV) (mulf (meanV S) (meanV S))
def sV (S Q : FVec F S1x64 .f32) : FVec F S32 .f32 :=
  Host.rsqrt (addf (varV S Q) (broadcastInDim S32 ![] bcast_S_S32 (constant S_ .f32 0x3727C5AC#32)))
/-- A per-group vector repeated over each group's two columns. -/
def rep (v : FVec F S32 .f32) : FVec F S64 .f32 := shapeCast S64 (broadcastInDim S32x2 ![0] bcast_S32_S32x2_0 v) shapeCasts_S32x2_S64
def scaleV (S Q : FVec F S1x64 .f32) (γ : FVec F S64 .f32) : FVec F S1x64 .f32 :=
  shapeCast S1x64 (mulf γ (rep (sV S Q))) shapeCasts_S64_S1x64
def shiftV (S Q : FVec F S1x64 .f32) (γ β : FVec F S64 .f32) : FVec F S1x64 .f32 :=
  shapeCast S1x64 (subf β (mulf (mulf (rep (meanV S)) γ) (rep (sV S Q)))) shapeCasts_S64_S1x64

set_option maxHeartbeats 2000000 in
theorem after1_v19 (W : Valuation τ sig (Elt F)) :
    StableHlo.after (hostOps1 (F := F)) W (Proc.devRef .tc main_v19)
      = scaleV (W (Proc.devRef .tc main_v0_0)) (W (Proc.devRef .tc main_v0_1)) (W (Proc.devRef .tc main_arg2)) := by
  after_results_simp <;> rfl

set_option maxHeartbeats 2000000 in
theorem after1_v23 (W : Valuation τ sig (Elt F)) :
    StableHlo.after (hostOps1 (F := F)) W (Proc.devRef .tc main_v23)
      = shiftV (W (Proc.devRef .tc main_v0_0)) (W (Proc.devRef .tc main_v0_1)) (W (Proc.devRef .tc main_arg2)) (W (Proc.devRef .tc main_arg3)) := by
  after_results_simp <;> rfl

set_option maxHeartbeats 2000000 in
theorem after1_main_arg0 (W : Valuation τ sig (Elt F)) :
    StableHlo.after (hostOps1 (F := F)) W (Proc.devRef .tc main_arg0) = W (Proc.devRef .tc main_arg0) := by
  after_results_simp <;> rfl

set_option maxHeartbeats 2000000 in
theorem after1_main_arg1 (W : Valuation τ sig (Elt F)) :
    StableHlo.after (hostOps1 (F := F)) W (Proc.devRef .tc main_arg1) = W (Proc.devRef .tc main_arg1) := by
  after_results_simp <;> rfl

set_option maxHeartbeats 2000000 in
theorem after1_main_arg2 (W : Valuation τ sig (Elt F)) :
    StableHlo.after (hostOps1 (F := F)) W (Proc.devRef .tc main_arg2) = W (Proc.devRef .tc main_arg2) := by
  after_results_simp <;> rfl

set_option maxHeartbeats 2000000 in
theorem after1_main_arg3 (W : Valuation τ sig (Elt F)) :
    StableHlo.after (hostOps1 (F := F)) W (Proc.devRef .tc main_arg3) = W (Proc.devRef .tc main_arg3) := by
  after_results_simp <;> rfl

set_option maxHeartbeats 2000000 in
theorem after1_main_arg4 (W : Valuation τ sig (Elt F)) :
    StableHlo.after (hostOps1 (F := F)) W (Proc.devRef .tc main_arg4) = W (Proc.devRef .tc main_arg4) := by
  after_results_simp <;> rfl

end Cert.KernelIdeal.Stretch1
end
-- ==== Proof.Stretch1Read.lean ====
/-
  The host operations between the first two kernel regions, read at an index on the extended reals: a group's sum is the
  initial word plus the two columns 2 g and 2 g + 1 of the [1, 64] row (its [32, 2] reshape summed along the pair axis); the
  mean, variance and reciprocal deviation entrywise; a per-group vector repeated over each group's two columns reads, at
  column c, the group c / 2; the final [1, 64] row reads column c at (0, c).
-/
import proofs.«178124_j25400436588659_1_alg».proof.Proof.Gen.KernelIdeal.Frame
import proofs.«178124_j25400436588659_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«178124_j25400436588659_1_alg».proof.Proof.Stretch1
set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.ValueIdx
open Idealize.ShloMosaic.Pipeline (Dat)

open Cert.Spec (col grp z32 cnt32 eps32 meanK varK sK scaleK shiftK)

/-- Dropping the pair axis of a [32, 2] array leaves the 32 groups. -/
theorem reduces_pairs : S32x2.Reduces [1] S32 := by decide

/-- Entry (g, j) of the [32, 2] reshape of a [1, 64] row is the row's column 2 g + j. -/
theorem pairs_apply (r : Cert.Spec.Row64) (g : Fin 32) (j : Fin 2) :
    shapeCast S32x2 r shapeCasts_S1x64_S32x2 (ix2 g j) = r (ix2 0 (col g j)) := by
  refine shapeCast_apply r shapeCasts_S1x64_S32x2 (ix2 g j) (ix2 0 (col g j)) ?_
  rw [Shape.rowMajor_val_two, Shape.rowMajor_val_two]
  show (0 : Nat) * 64 + (2 * g.val + j.val) = g.val * 2 + j.val
  omega

/-- A group's sum: the initial word plus the row's two columns of the group. -/
theorem grpRed_apply (r : Cert.Spec.Row64) (g : Fin 32) :
    grpRed (F := Ideal) r (ix1 g) = z32 + ∑ j : Fin 2, r (ix2 0 (col g j)) := by
  unfold grpRed
  refine (Ideal.hostReduceAdd_single reducesTo_S32x2_S32_d1 reduces_pairs _ _ (ix1 g)).trans ?_
  refine congrArg (z32 + ·) (Finset.sum_congr rfl fun j _ => ?_)
  refine Eq.trans (congrArg _ ?_) (pairs_apply r g j)
  funext a
  match a with
  | ⟨0, _⟩ => rfl
  | ⟨1, _⟩ => rfl

/-- The count vector reads the count word at every group. -/
theorem cntV_apply (j : S32.Idx) : cntV (F := Ideal) j = cnt32 := rfl

/-- A group's mean: its sum over the count. -/
theorem meanV_apply (S : Cert.Spec.Row64) (g : Fin 32) : meanV (F := Ideal) S (ix1 g) = meanK S g := by
  show Ideal.div (grpRed (F := Ideal) S (ix1 g)) (cntV (F := Ideal) (ix1 g)) = meanK S g
  rw [grpRed_apply, cntV_apply]
  rfl

/-- A group's variance: mean of squares less the squared mean. -/
theorem varV_apply (S Q : Cert.Spec.Row64) (g : Fin 32) : varV (F := Ideal) S Q (ix1 g) = varK S Q g := by
  show Ideal.div (grpRed (F := Ideal) Q (ix1 g)) (cntV (F := Ideal) (ix1 g))
      - meanV (F := Ideal) S (ix1 g) * meanV (F := Ideal) S (ix1 g) = varK S Q g
  rw [grpRed_apply, cntV_apply, meanV_apply]
  rfl

/-- A group's reciprocal deviation. -/
theorem sV_apply (S Q : Cert.Spec.Row64) (g : Fin 32) : sV (F := Ideal) S Q (ix1 g) = sK S Q g := by
  show Ideal.rsqrt (varV (F := Ideal) S Q (ix1 g) + eps32) = sK S Q g
  rw [varV_apply]
  rfl

/-- The repeated vector reads, at column c, the group vector at c's group. -/
theorem rep_apply (v : S32.Idx → EReal) (c : Fin 64) : rep (F := Ideal) v (ix1 c) = v (ix1 (grp c)) := by
  unfold rep
  have hc : c.val % 2 < 2 := Nat.mod_lt _ (by decide)
  refine (shapeCast_apply _ shapeCasts_S32x2_S64 (ix1 c) (ix2 (grp c) ⟨c.val % 2, hc⟩) ?_).trans ?_
  · rw [Shape.rowMajor_val_two, Shape.rowMajor_val_one]
    show c.val / 2 * 2 + c.val % 2 = c.val
    omega
  · refine broadcastInDim_apply _ bcast_S32_S32x2_0 v _ (ix1 (grp c)) (fun a => ?_)
    match a with
    | ⟨0, _⟩ =>
      show c.val / 2 = if (32 : Nat) = 1 then 0 else c.val / 2
      rw [if_neg (by decide)]

/-- The row form of a [64] vector reads column c at (0, c). -/
theorem row_apply (v : S64.Idx → EReal) (a : Fin 1) (c : Fin 64) :
    shapeCast S1x64 v shapeCasts_S64_S1x64 (ix2 a c) = v (ix1 c) := by
  refine shapeCast_apply v shapeCasts_S64_S1x64 (ix2 a c) (ix1 c) ?_
  rw [Shape.rowMajor_val_two, Shape.rowMajor_val_one]
  have h0 : a.val < 1 := a.isLt
  show c.val = a.val * 64 + c.val
  omega

/-- Every index of a [1, 64] row is a pair of a row coordinate and a column. -/
theorem row_index (i : S1x64.Idx) : ∃ (a : Fin 1) (c : Fin 64), i = ix2 a c := ⟨i 0, i 1, eq_ix2 i⟩

/-- At the ideal instance the scale row is, column by column, gamma times the group's reciprocal deviation. -/
theorem scaleV_eq (S Q : Cert.Spec.Row64) (γ : Cert.Spec.Vec64) :
    scaleV (F := Ideal) S Q γ = Cert.Spec.scaleK S Q γ := by
  funext i
  obtain ⟨a, c, rfl⟩ := row_index i
  unfold scaleV
  rw [row_apply]
  show γ (ix1 c) * rep (F := Ideal) (sV (F := Ideal) S Q) (ix1 c) = _
  rw [rep_apply, sV_apply]
  rfl

/-- At the ideal instance the shift row is, column by column, beta less mean times gamma times the reciprocal deviation. -/
theorem shiftV_eq (S Q : Cert.Spec.Row64) (γ β : Cert.Spec.Vec64) :
    shiftV (F := Ideal) S Q γ β = Cert.Spec.shiftK S Q γ β := by
  funext i
  obtain ⟨a, c, rfl⟩ := row_index i
  unfold shiftV
  rw [row_apply]
  show β (ix1 c) - (rep (F := Ideal) (meanV (F := Ideal) S) (ix1 c) * γ (ix1 c))
      * rep (F := Ideal) (sV (F := Ideal) S Q) (ix1 c) = _
  rw [rep_apply, rep_apply, sV_apply, meanV_apply]
  rfl

end Cert.KernelIdeal.Stretch1
end
-- ==== Proof.Stretch2.lean ====
/-
  The host operations between the second and the third kernel region: an index word below zero is raised by 100000, the
  rows of the normalised table are gathered through the words ([300000, 9] words, each gathering one row of 64 entries), and
  each nine gathered rows are laid out as one row of 576; the weights change float format. The gathered matrix is one
  function of the table and the words, whatever the entries' type.
-/
import proofs.«178124_j25400436588659_1_alg».proof.Proof.Gen.KernelIdeal.Frame
import proofs.«178124_j25400436588659_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

namespace Cert.KernelIdeal.Stretch2

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo
variable {F : FTy → Type} [FloatOps F]

/-- The gathered, flattened matrix: an index word below zero is raised by 100000, the table's rows are gathered through
    the words, and each 9 gathered rows of 64 entries are laid out as one row of 576. -/
def gathK {α : Type} (y : S100000x64.Idx → α) (idx : (⟨S300000x9, .i32⟩ : BufTy).Contents (Elt F)) : S300000x576.Idx → α :=
  shapeCast S300000x576 (Host.gather gather_S100000x64_S300000x9x1_S300000x9x64_2_0_n_n_0_2_164 y
    (broadcastInDim S300000x9x1 ![0, 1] bcast_S300000x9_S300000x9x1_0_1
      (select (cmpi .slt idx (broadcastInDim S300000x9 ![] bcast_S_S300000x9 (constantI S_ 32 0#32)))
        (addi idx (broadcastInDim S300000x9 ![] bcast_S_S300000x9 (constantI S_ 32 100000#32))) idx)))
    shapeCasts_S300000x9x64_S300000x576

set_option maxHeartbeats 2000000 in
theorem after2_v32 (W : Valuation τ sig (Elt F)) :
    StableHlo.after (hostOps2 (F := F)) W (Proc.devRef .tc main_v32)
      = gathK (F := F) (W (Proc.devRef .tc main_v24)) (W (Proc.devRef .tc main_arg1)) := by
  after_results_simp <;> rfl

set_option maxHeartbeats 2000000 in
theorem after2_v33 (W : Valuation τ sig (Elt F)) :
    StableHlo.after (hostOps2 (F := F)) W (Proc.devRef .tc main_v33)
      = truncf .bf16 (W (Proc.devRef .tc main_arg4)) bitsLt_bf16_f32 := by
  after_results_simp <;> rfl

end Cert.KernelIdeal.Stretch2
end
-- ==== Proof.KernelValue.lean ====
/-
  What the kernel program's result array holds at the end of its run, at the ideal instance, as a function of the
  launch contents of the argument arrays.

  The run passes five boundaries. The first region leaves the column sums S and sums of squares Q of the table x; the
  host operations after it make the scale row gamma * s and the shift row beta - (mean * gamma) * s of the groups'
  statistics; the second region leaves y = max(x * scale + shift, 0); the host operations after it gather rows of y
  through the index words and flatten nine gathered rows into one; the third region multiplies by the weights. Each
  boundary's contents are read off the one before, an array no operation writes being what it was at launch.
-/
import proofs.«178124_j25400436588659_1_alg».proof.Proof.KernelRun
import proofs.«178124_j25400436588659_1_alg».proof.Proof.Region0
import proofs.«178124_j25400436588659_1_alg».proof.Proof.Region1
import proofs.«178124_j25400436588659_1_alg».proof.Proof.Region2
import proofs.«178124_j25400436588659_1_alg».proof.Proof.Stretch1Read
import proofs.«178124_j25400436588659_1_alg».proof.Proof.Stretch2

set_option maxRecDepth 16384

noncomputable section

namespace Cert.KernelIdeal.Value

open Cert.KernelIdeal Cert.KernelIdeal.Gen
open Idealize.ShloMosaic Idealize.ShloMosaic.TcCoe Idealize.SL.Sem Idealize.ShloMosaic.ValueIdx
open Cert.KernelIdeal.Stretch1 Cert.KernelIdeal.Stretch2

variable (m : (ℓ : Loc nD τ sig) → Buf (Elt Ideal) ℓ) (ρ : Dev nD → PrngReg)

/-- The argument arrays' launch contents on core `c`, by name: the table, the index words, gamma, beta, the weights. -/
abbrev xa (c : Dev nD) : Cert.Spec.Tab := m ((c : Thread nD τ).loc main_arg0)
abbrev ia (c : Dev nD) : (⟨S300000x9, .i32⟩ : BufTy).Contents (Elt Ideal) := m ((c : Thread nD τ).loc main_arg1)
abbrev ga (c : Dev nD) : Cert.Spec.Vec64 := m ((c : Thread nD τ).loc main_arg2)
abbrev ba (c : Dev nD) : Cert.Spec.Vec64 := m ((c : Thread nD τ).loc main_arg3)
abbrev wa (c : Dev nD) : Cert.Spec.WMat := m ((c : Thread nD τ).loc main_arg4)

/-! ## After the first region -/

theorem W1_arg0 (c : Dev nD) : W1 m ρ c (Proc.devRef .tc main_arg0) = xa m c :=
  (W1_arr m ρ c 0).trans (((dat0 (V0 m ρ) c).arrAt_in 0 rfl _).trans (A_eq0 (V0 m ρ) c 0))
theorem W1_arg1 (c : Dev nD) : W1 m ρ c (Proc.devRef .tc main_arg1) = ia m c := W1_of_ne m ρ c main_arg1 (by decide)
theorem W1_arg2 (c : Dev nD) : W1 m ρ c (Proc.devRef .tc main_arg2) = ga m c := W1_of_ne m ρ c main_arg2 (by decide)
theorem W1_arg3 (c : Dev nD) : W1 m ρ c (Proc.devRef .tc main_arg3) = ba m c := W1_of_ne m ρ c main_arg3 (by decide)
theorem W1_arg4 (c : Dev nD) : W1 m ρ c (Proc.devRef .tc main_arg4) = wa m c := W1_of_ne m ρ c main_arg4 (by decide)

/-- The first region's first result: the column sums of the table. -/
theorem W1_sum (c : Dev nD) : W1 m ρ c (Proc.devRef .tc main_v0_0) = Cert.Spec.colSum (xa m c) :=
  (W1_arr m ρ c 1).trans (Cert.KernelIdeal.Region0.final_sum (V0 m ρ) c)
/-- The first region's second result: the column sums of squares. -/
theorem W1_sumsq (c : Dev nD) : W1 m ρ c (Proc.devRef .tc main_v0_1) = Cert.Spec.colSumSq (xa m c) :=
  (W1_arr m ρ c 2).trans (Cert.KernelIdeal.Region0.final_sumsq (V0 m ρ) c)

/-! ## After the host operations that follow it -/

theorem W2_arg0 (c : Dev nD) : W2 m ρ c (Proc.devRef .tc main_arg0) = xa m c :=
  (after1_main_arg0 (W1 m ρ c)).trans (W1_arg0 m ρ c)
theorem W2_arg1 (c : Dev nD) : W2 m ρ c (Proc.devRef .tc main_arg1) = ia m c :=
  (after1_main_arg1 (W1 m ρ c)).trans (W1_arg1 m ρ c)
theorem W2_arg4 (c : Dev nD) : W2 m ρ c (Proc.devRef .tc main_arg4) = wa m c :=
  (after1_main_arg4 (W1 m ρ c)).trans (W1_arg4 m ρ c)

/-- The scale row. -/
theorem W2_scale (c : Dev nD) : W2 m ρ c (Proc.devRef .tc main_v19)
    = Cert.Spec.scaleK (Cert.Spec.colSum (xa m c)) (Cert.Spec.colSumSq (xa m c)) (ga m c) := by
  refine (after1_v19 (W1 m ρ c)).trans ?_
  rw [W1_sum, W1_sumsq, W1_arg2]
  exact scaleV_eq _ _ _
/-- The shift row. -/
theorem W2_shift (c : Dev nD) : W2 m ρ c (Proc.devRef .tc main_v23)
    = Cert.Spec.shiftK (Cert.Spec.colSum (xa m c)) (Cert.Spec.colSumSq (xa m c)) (ga m c) (ba m c) := by
  refine (after1_v23 (W1 m ρ c)).trans ?_
  rw [W1_sum, W1_sumsq, W1_arg2, W1_arg3]
  exact shiftV_eq _ _ _ _

/-! ## After the second region -/

/-- The second region's result: the kernel's normalised, clamped table. -/
theorem W3_table (c : Dev nD) : W3 m ρ c (Proc.devRef .tc main_v24) = Cert.Spec.YK (xa m c) (ga m c) (ba m c) := by
  refine (W3_arr m ρ c 3).trans ((Cert.KernelIdeal.Region1.final_relu (V2 m ρ) c).trans ?_)
  show Cert.Spec.affRelu (W2 m ρ c (Proc.devRef .tc main_arg0)) (W2 m ρ c (Proc.devRef .tc main_v19)) (W2 m ρ c (Proc.devRef .tc main_v23)) = _
  rw [W2_arg0, W2_scale, W2_shift]
  rfl
theorem W3_arg1 (c : Dev nD) : W3 m ρ c (Proc.devRef .tc main_arg1) = ia m c :=
  (W3_of_ne m ρ c main_arg1 (by decide)).trans (W2_arg1 m ρ c)
theorem W3_arg4 (c : Dev nD) : W3 m ρ c (Proc.devRef .tc main_arg4) = wa m c :=
  (W3_of_ne m ρ c main_arg4 (by decide)).trans (W2_arg4 m ρ c)

/-! ## After the host operations that follow it -/

/-- The gathered, flattened matrix of the table. -/
theorem W4_gathered (c : Dev nD) : W4 m ρ c (Proc.devRef .tc main_v32)
    = gathK (F := Ideal) (Cert.Spec.YK (xa m c) (ga m c) (ba m c)) (ia m c) := by
  refine (after2_v32 (W3 m ρ c)).trans ?_
  rw [W3_table, W3_arg1]
/-- The weights: the change of float format is the identity on the extended reals. -/
theorem W4_weights (c : Dev nD) : W4 m ρ c (Proc.devRef .tc main_v33) = wa m c := by
  refine (after2_v33 (W3 m ρ c)).trans ?_
  rw [W3_arg4]
  rfl

/-! ## After the third region -/

/-- The result array: the gathered matrix of the kernel's table times the weights. -/
theorem W5_result (c : Dev nD) : W5 m ρ c (Proc.devRef .tc main_v34)
    = Cert.Spec.mm (gathK (F := Ideal) (Cert.Spec.YK (xa m c) (ga m c) (ba m c)) (ia m c)) (wa m c) := by
  refine (W5_arr m ρ c 2).trans ((Cert.KernelIdeal.Region2.final_mm (V4 m ρ) c).trans ?_)
  show Cert.Spec.mm (W4 m ρ c (Proc.devRef .tc main_v32)) (W4 m ρ c (Proc.devRef .tc main_v33)) = _
  rw [W4_gathered, W4_weights]

/-- The run, read: every weakly fair execution of the kernel program terminates without a fault, the result array at the
    product above and every argument array as launched. -/
theorem run : θ_run defs (onTc (τ := τ) (main (F := Ideal))) ⟨m, fun _ => 0, ρ⟩ (fun r => ∀ c : Dev nD,
      r.2.mem ((c.tc : Thread nD τ).loc main_v34)
        = Cert.Spec.mm (gathK (F := Ideal) (Cert.Spec.YK (xa m c) (ga m c) (ba m c)) (ia m c)) (wa m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (W5_result m ρ c), (h c).2⟩)
    (Cert.KernelIdeal.Named.run_named (F := Ideal) m ρ)

end Cert.KernelIdeal.Value
end
-- ==== Proof.RefValue.lean ====
/-
  The reference program read at an index on the extended reals.

  Its table: x reshaped [100000, 32, 2] (entry (n, g, j) is x[n, 2 g + j]); per group g the sum over the rows and the two
  members (a sum over two axes: the indices that reduce to g are exactly the (n, g, j)), the mean, the squared deviations,
  their sum, the variance, the reciprocal deviation; the normalised entry times gamma plus beta, clamped at zero, back in
  the [100000, 64] layout (entry (n, c) is (n, c / 2, c % 2)). Its result: the gathered, flattened matrix of that table
  contracted with the weights.
-/
import proofs.«178124_j25400436588659_1_alg».proof.Proof.Gen.ReferenceIdeal.Read
import proofs.«178124_j25400436588659_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The gathered, flattened matrix: an index word below zero is raised by 100000, the table's rows are gathered through
    the words, and each 9 gathered rows of 64 entries are laid out as one row of 576. -/
def gathR {α : Type} (y : S100000x64.Idx → α) (idx : (⟨S300000x9, .i32⟩ : BufTy).Contents (Elt Ideal)) : S300000x576.Idx → α :=
  shapeCast S300000x576 (Host.gather gather_S100000x64_S300000x9x1_S300000x9x64_2_0_n_n_0_2_164 y
    (val_main_v32 (F := Ideal) idx)) shapeCasts_S300000x9x64_S300000x576

/-! ## A sum over the rows and the two members of one group

The reference sums a [100000, 32, 2] array over its axes 0 and 2. At group `g` that is the initial value plus the sum
of the entries (n, g, j) over every row `n` and member `j`. -/

/-- The entries of a [100000, 32, 2] array that lie in group `g`: one for each row and member. -/
def groupEmb (g : Fin 32) : Fin 100000 × Fin 2 ↪ S100000x32x2.Idx :=
  ⟨fun p => ix3 p.1 g p.2, fun p q h => by
    have h0 : p.1 = q.1 := congrFun h 0
    have h2 : p.2 = q.2 := congrFun h 2
    exact Prod.ext h0 h2⟩

/-- Dropping axes 0 and 2 of (n, g, j) leaves g; -/
theorem drop_group (n : Fin 100000) (g : Fin 32) (j : Fin 2) :
    reducesTo_S100000x32x2_S32_d0_2.drop (ix3 n g j) = ix1 g := by
  funext b
  match b with
  | ⟨0, _⟩ => rfl

/-- and an index that drops to g is (its row, g, its member); -/
theorem eq_of_drop_group (i : S100000x32x2.Idx) (g : Fin 32)
    (h : reducesTo_S100000x32x2_S32_d0_2.drop i = ix1 g) : i = ix3 (i 0 : Fin 100000) g (i 2 : Fin 2) := by
  have e := Shape.ReducesTo.drop_apply_val_of_eq reducesTo_S100000x32x2_S32_d0_2 i 0 1
  rw [h] at e
  funext a
  match a with
  | ⟨0, _⟩ => rfl
  | ⟨1, _⟩ => exact Fin.ext e.symm
  | ⟨2, _⟩ => rfl

/-- so the indices summed at g are exactly the (n, g, j). -/
theorem filter_drop_group (g : Fin 32) :
    Finset.univ.filter (fun i : S100000x32x2.Idx => reducesTo_S100000x32x2_S32_d0_2.drop i = ix1 g)
      = Finset.univ.map (groupEmb g) := by
  ext i
  simp only [Finset.mem_filter, Finset.mem_univ, true_and, Finset.mem_map, groupEmb, Function.Embedding.coeFn_mk]
  exact ⟨fun h => ⟨((i 0 : Fin 100000), (i 2 : Fin 2)), (eq_of_drop_group i g h).symm⟩,
    fun ⟨p, hp⟩ => hp ▸ drop_group p.1 g p.2⟩

/-- The sum over axes 0 and 2 read at group g. -/
theorem reduce_group (y : S100000x32x2.Idx → EReal) (init : EReal) (g : Fin 32) :
    Ideal.hostReduceAdd reducesTo_S100000x32x2_S32_d0_2 y init (ix1 g)
      = init + ∑ p : Fin 100000 × Fin 2, y (ix3 p.1 g p.2) := by
  unfold Ideal.hostReduceAdd
  rw [filter_drop_group, Finset.sum_map]
  rfl

/-! ## The table seen as [100000, 32, 2]: entry (n, g, j) is the table's (n, 2 g + j) -/

theorem idx_v0 (n : Fin 100000) (g : Fin 32) (j : Fin 2) :
    idx_main_v0 (ix3 n g j) = ix2 n (Cert.Spec.col g j) := by
  have hn := n.isLt; have hg := g.isLt; have hj := j.isLt
  funext a
  match a with
  | ⟨0, _⟩ => exact Fin.ext (by show ((n.val * 32 + g.val) * 2 + j.val) / 64 = n.val; omega)
  | ⟨1, _⟩ => exact Fin.ext (by show ((n.val * 32 + g.val) * 2 + j.val) % 64 = 2 * g.val + j.val; omega)

theorem read_v0 (x0 : Cert.Spec.Tab) (n : Fin 100000) (g : Fin 32) (j : Fin 2) :
    val_main_v0 (F := Ideal) x0 (ix3 n g j) = x0 (ix2 n (Cert.Spec.col g j)) := by
  rw [val_main_v0_apply, idx_v0]

/-! ## The group statistics -/

/-- The first sum at group g: the group's 200000 entries. -/
theorem sum_v1 (x0 : Cert.Spec.Tab) (g : Fin 32) :
    val_main_v1 (F := Ideal) x0 (ix1 g)
      = Cert.Spec.z32 + ∑ p : Fin 100000 × Fin 2, x0 (ix2 p.1 (Cert.Spec.col g p.2)) := by
  unfold val_main_v1 Host.reduceAdd
  rw [Ideal.hostReduceAdd_def, reduce_group]
  exact congrArg₂ (· + ·) rfl (Finset.sum_congr rfl fun p _ => read_v0 x0 p.1 g p.2)

theorem idx_v2 (g : Fin 32) : idx_main_v2 (ix3 (0 : Fin 1) g (0 : Fin 1)) = ix1 g := by
  funext a
  match a with
  | ⟨0, _⟩ => rfl

/-- The [1, 32, 1] mean at (0, g, 0) is the group's mean. -/
theorem mean_v4 (x0 : Cert.Spec.Tab) (g : Fin 32) :
    val_main_v4 (F := Ideal) x0 (ix3 (0 : Fin 1) g (0 : Fin 1)) = Cert.Spec.meanR x0 g := by
  rw [val_main_v4_apply, val_main_v2_apply, idx_v2, sum_v1, val_main_v3_apply, val_main_cst_0_apply]
  rfl

theorem idx_v5 (n : Fin 100000) (g : Fin 32) (j : Fin 2) :
    idx_main_v5 (ix3 n g j) = ix3 (0 : Fin 1) g (0 : Fin 1) := by
  funext a
  match a with
  | ⟨0, _⟩ => rfl
  | ⟨1, _⟩ => rfl
  | ⟨2, _⟩ => rfl

theorem idx_v12 (n : Fin 100000) (g : Fin 32) (j : Fin 2) :
    idx_main_v12 (ix3 n g j) = ix3 (0 : Fin 1) g (0 : Fin 1) := by
  funext a
  match a with
  | ⟨0, _⟩ => rfl
  | ⟨1, _⟩ => rfl
  | ⟨2, _⟩ => rfl

theorem idx_v17 (n : Fin 100000) (g : Fin 32) (j : Fin 2) :
    idx_main_v17 (ix3 n g j) = ix3 (0 : Fin 1) g (0 : Fin 1) := by
  funext a
  match a with
  | ⟨0, _⟩ => rfl
  | ⟨1, _⟩ => rfl
  | ⟨2, _⟩ => rfl

/-- The deviation of entry (n, g, j) from its group's mean. -/
theorem dev_v6 (x0 : Cert.Spec.Tab) (n : Fin 100000) (g : Fin 32) (j : Fin 2) :
    val_main_v6 (F := Ideal) x0 (ix3 n g j) = x0 (ix2 n (Cert.Spec.col g j)) - Cert.Spec.meanR x0 g := by
  rw [val_main_v6_apply, read_v0, val_main_v5_apply, idx_v5, mean_v4]
  rfl

/-- Its square. -/
theorem sq_v7 (x0 : Cert.Spec.Tab) (n : Fin 100000) (g : Fin 32) (j : Fin 2) :
    val_main_v7 (F := Ideal) x0 (ix3 n g j)
      = (x0 (ix2 n (Cert.Spec.col g j)) - Cert.Spec.meanR x0 g) * (x0 (ix2 n (Cert.Spec.col g j)) - Cert.Spec.meanR x0 g) := by
  rw [val_main_v7_apply, dev_v6]
  rfl

/-- The second sum at group g: the group's squared deviations. -/
theorem sum_v8 (x0 : Cert.Spec.Tab) (g : Fin 32) :
    val_main_v8 (F := Ideal) x0 (ix1 g)
      = Cert.Spec.z32 + ∑ p : Fin 100000 × Fin 2,
          (x0 (ix2 p.1 (Cert.Spec.col g p.2)) - Cert.Spec.meanR x0 g) * (x0 (ix2 p.1 (Cert.Spec.col g p.2)) - Cert.Spec.meanR x0 g) := by
  unfold val_main_v8 Host.reduceAdd
  rw [Ideal.hostReduceAdd_def, reduce_group]
  exact congrArg₂ (· + ·) rfl (Finset.sum_congr rfl fun p _ => sq_v7 x0 p.1 g p.2)

theorem idx_v9 (g : Fin 32) : idx_main_v9 (ix3 (0 : Fin 1) g (0 : Fin 1)) = ix1 g := by
  funext a
  match a with
  | ⟨0, _⟩ => rfl

/-- The [1, 32, 1] variance at (0, g, 0) is the group's variance. -/
theorem var_v11 (x0 : Cert.Spec.Tab) (g : Fin 32) :
    val_main_v11 (F := Ideal) x0 (ix3 (0 : Fin 1) g (0 : Fin 1)) = Cert.Spec.varR x0 g := by
  rw [val_main_v11_apply, val_main_v9_apply, idx_v9, sum_v8, val_main_v10_apply, val_main_cst_2_apply]
  rfl

/-- The [1, 32, 1] reciprocal deviation at (0, g, 0) is the group's. -/
theorem rs_v16 (x0 : Cert.Spec.Tab) (g : Fin 32) :
    val_main_v16 (F := Ideal) x0 (ix3 (0 : Fin 1) g (0 : Fin 1)) = Cert.Spec.sR x0 g := by
  rw [val_main_v16_apply, val_main_v15_apply, var_v11, val_main_v14_apply, val_main_cst_3_apply]
  rfl

/-- The normalised entry (n, g, j). -/
theorem norm_v18 (x0 : Cert.Spec.Tab) (n : Fin 100000) (g : Fin 32) (j : Fin 2) :
    val_main_v18 (F := Ideal) x0 (ix3 n g j)
      = (x0 (ix2 n (Cert.Spec.col g j)) - Cert.Spec.meanR x0 g) * Cert.Spec.sR x0 g := by
  rw [val_main_v18_apply, val_main_v13_apply, read_v0, val_main_v12_apply, idx_v12, mean_v4, val_main_v17_apply,
    idx_v17, rs_v16]
  rfl

/-! ## Back to [100000, 64]: entry (n, c) is (n, c / 2, c % 2) -/

theorem idx_v19 (n : Fin 100000) (c : Fin 64) :
    idx_main_v19 (ix2 n c) = ix3 n (Cert.Spec.grp c) (⟨c.val % 2, Nat.mod_lt _ (by decide)⟩ : Fin 2) := by
  have hn := n.isLt; have hc := c.isLt
  funext a
  match a with
  | ⟨0, _⟩ => exact Fin.ext (by show (n.val * 64 + c.val) / 64 = n.val; omega)
  | ⟨1, _⟩ => exact Fin.ext (by show (n.val * 64 + c.val) / 2 % 32 = c.val / 2; omega)
  | ⟨2, _⟩ => exact Fin.ext (by show (n.val * 64 + c.val) % 2 = c.val % 2; omega)

/-- Column c is member c % 2 of its group. -/
theorem col_grp (c : Fin 64) :
    Cert.Spec.col (Cert.Spec.grp c) (⟨c.val % 2, Nat.mod_lt _ (by decide)⟩ : Fin 2) = c :=
  Fin.ext (by show 2 * (c.val / 2) + c.val % 2 = c.val; omega)

theorem idx_v21 (n : Fin 100000) (c : Fin 64) : idx_main_v20 (idx_main_v21 (ix2 n c)) = ix1 c := by
  funext a
  match a with
  | ⟨0, _⟩ => rfl

theorem idx_v24 (n : Fin 100000) (c : Fin 64) : idx_main_v23 (idx_main_v24 (ix2 n c)) = ix1 c := by
  funext a
  match a with
  | ⟨0, _⟩ => rfl

/-- The reference's normalised, clamped table is the reference arrangement of the specification. -/
theorem table_eq (x0 : Cert.Spec.Tab) (x2 x3 : Cert.Spec.Vec64) :
    val_main_v26 (F := Ideal) x0 x2 x3 = Cert.Spec.YR x0 x2 x3 := by
  funext i
  obtain ⟨n, c, rfl⟩ : ∃ (n : Fin 100000) (c : Fin 64), i = ix2 n c := ⟨i 0, i 1, eq_ix2 i⟩
  rw [val_main_v26_apply, val_main_v25_apply, val_main_v22_apply, val_main_v19_apply, idx_v19, norm_v18, col_grp,
    val_main_v21_apply, val_main_v20_apply, idx_v21, val_main_v24_apply, val_main_v23_apply, idx_v24,
    val_main_call0_v0_apply, val_main_call0_cst_apply]
  rfl

/-- The reference's result is the product of the gathered matrix of its table with the weights. -/
theorem result_eq (x0 : Cert.Spec.Tab) (x1 : (⟨S300000x9, .i32⟩ : BufTy).Contents (Elt Ideal)) (x2 x3 : Cert.Spec.Vec64)
    (x4 : Cert.Spec.WMat) :
    val_main_v35 (F := Ideal) x0 x1 x2 x3 x4 = Cert.Spec.mm (gathR (val_main_v26 (F := Ideal) x0 x2 x3) x1) x4 := by
  funext i
  have hG : val_main_v34 (F := Ideal) x0 x1 x2 x3 = gathR (val_main_v26 (F := Ideal) x0 x2 x3) x1 := by
    unfold val_main_v34 val_main_v33 gathR
    rfl
  have hl : ∀ k : Fin 576, lidx_main_v35 i k = ix2 (i 0 : Fin 300000) k := fun k =>
    funext fun a => Fin.ext (by match a with | ⟨0, _⟩ => rfl | ⟨1, _⟩ => rfl)
  have hr : ∀ k : Fin 576, ridx_main_v35 i k = ix2 k (i 1 : Fin 64) := fun k =>
    funext fun a => Fin.ext (by match a with | ⟨0, _⟩ => rfl | ⟨1, _⟩ => rfl)
  rw [val_main_v35_apply, hG]
  exact Finset.sum_congr rfl fun k _ => by rw [hl, hr]; rfl

end Cert.ReferenceIdeal.RefValue
end
-- ==== Proof.LibVariance.lean ====
/-
  The variance identity on the extended reals, for real data.

  For a finite family of real numbers `x i`, read as extended reals, with `n` its cardinality (nonzero), write
  `μ = (Σ_j x_j)·(1/n)` for the mean.  The mean of the squared deviations equals the mean of the squares less the
  square of the mean:

      (Σ_i (x_i − μ)·(x_i − μ))·(1/n) = (Σ_i x_i·x_i)·(1/n) − μ·μ .

  Every division by `n` is written as the product with the reciprocal `1/n` (which is what a division of an extended
  real by a nonzero real is).  Since every term is the image of a real number, both sides are images of real numbers:
  the finite sum of images is the image of the finite sum, and so are differences and products; the identity is then the
  usual one over the reals, which follows from expanding the square termwise,
  `(x_i − μ)² = x_i² − 2μ·x_i + μ²`, summing, and using `Σ_i μ² = n·μ²` with `μ = S/n`.
-/
import Mathlib.Data.EReal.Inv
import Mathlib.Algebra.BigOperators.Group.Finset.Basic
import Mathlib.Algebra.BigOperators.Ring.Finset
import Mathlib.Tactic.Ring
import Mathlib.Tactic.FieldSimp
import Idealize.ShloMosaic.PureOps.Ideal

noncomputable section

namespace Cert.Bridge

/-- A finite sum of images of real numbers in the extended reals is the image of the real sum. -/
theorem coe_finset_sum {ι : Type} (s : Finset ι) (f : ι → ℝ) :
    (∑ i ∈ s, ((f i : ℝ) : EReal)) = ((∑ i ∈ s, f i : ℝ) : EReal) := by
  classical
  refine Finset.induction_on s (by simp) ?_
  intro a t ha ih
  rw [Finset.sum_insert ha, Finset.sum_insert ha, ih, EReal.coe_add]

/-- The variance identity over the reals: with `n` the number of terms and `S` their sum, the sum of the squared
    deviations from `S/n`, divided by `n`, is the sum of the squares divided by `n`, less `(S/n)²`. -/
theorem var_identity_real {ι : Type} [Fintype ι] (x : ι → ℝ) (n : ℝ) (hn : n ≠ 0)
    (hcard : (Fintype.card ι : ℝ) = n) :
    (∑ i, (x i - (∑ j, x j) * (1 / n)) * (x i - (∑ j, x j) * (1 / n))) * (1 / n)
      = (∑ i, x i * x i) * (1 / n) - ((∑ j, x j) * (1 / n)) * ((∑ j, x j) * (1 / n)) := by
  set S : ℝ := ∑ j, x j with hS
  set μ : ℝ := S * (1 / n) with hμ
  have hterm : ∀ i, (x i - μ) * (x i - μ) = x i * x i - 2 * μ * x i + μ * μ := fun i => by ring
  have hsum : (∑ i, (x i - μ) * (x i - μ)) = (∑ i, x i * x i) - 2 * μ * S + n * (μ * μ) := by
    rw [Finset.sum_congr rfl (fun i _ => hterm i), Finset.sum_add_distrib, Finset.sum_sub_distrib,
      ← Finset.mul_sum, Finset.sum_const, Finset.card_univ, nsmul_eq_mul, hcard]
  rw [hsum, hμ]
  field_simp
  ring

/-- The variance identity on the extended reals, for real data: the mean of the squared deviations from the mean is
    the mean of the squares less the square of the mean, each division by `n` being the product with `1/n`. -/
theorem var_identity {ι : Type} [Fintype ι] (x : ι → ℝ) (n : ℝ) (hn : n ≠ 0)
    (hcard : (Fintype.card ι : ℝ) = n) :
    (∑ i, ((x i : EReal) - (∑ j, (x j : EReal)) * ((1 / n : ℝ) : EReal))
          * ((x i : EReal) - (∑ j, (x j : EReal)) * ((1 / n : ℝ) : EReal))) * ((1 / n : ℝ) : EReal)
      = (∑ i, (x i : EReal) * (x i : EReal)) * ((1 / n : ℝ) : EReal)
        - ((∑ j, (x j : EReal)) * ((1 / n : ℝ) : EReal)) * ((∑ j, (x j : EReal)) * ((1 / n : ℝ) : EReal)) := by
  have hS : (∑ j, (x j : EReal)) = ((∑ j, x j : ℝ) : EReal) := coe_finset_sum _ _
  have hQ : (∑ i, (x i : EReal) * (x i : EReal)) = ((∑ i, x i * x i : ℝ) : EReal) := by
    exact (Finset.sum_congr rfl (fun i _ => (EReal.coe_mul (x i) (x i)).symm)).trans
      (coe_finset_sum Finset.univ (fun i => x i * x i))
  have hD : (∑ i, ((x i : EReal) - ((∑ j, x j : ℝ) : EReal) * ((1 / n : ℝ) : EReal))
          * ((x i : EReal) - ((∑ j, x j : ℝ) : EReal) * ((1 / n : ℝ) : EReal)))
      = ((∑ i, (x i - (∑ j, x j) * (1 / n)) * (x i - (∑ j, x j) * (1 / n)) : ℝ) : EReal) := by
    refine (Finset.sum_congr rfl (fun i _ => ?_)).trans
      (coe_finset_sum Finset.univ (fun i => (x i - (∑ j, x j) * (1 / n)) * (x i - (∑ j, x j) * (1 / n))))
    rw [← EReal.coe_mul, ← EReal.coe_sub, ← EReal.coe_mul]
  rw [hS, hD, hQ, ← EReal.coe_mul, ← EReal.coe_mul, ← EReal.coe_mul, ← EReal.coe_mul, ← EReal.coe_sub,
    var_identity_real x n hn hcard]

end Cert.Bridge

end
-- ==== Proof.Bridge.lean ====
/-
  The two arrangements of the group normalisation agree on real-valued data.

  For a group's 200000 real entries d: the mean of the squared deviations from the mean equals the mean of the squares
  less the squared mean (the variance identity); it is a nonnegative real, so with the positive epsilon added the
  reciprocal square root is a real number s; and x * (gamma * s) + (beta - (mu * gamma) * s) = ((x - mu) * s) * gamma + beta
  by the ring laws. The column sums of the kernel's arrangement, added over a group's two columns, are the sum over the
  group's (row, member) pairs. The three float words are 0, 200000 and a positive real.
-/
import proofs.«178124_j25400436588659_1_alg».proof.Proof.Spec
import proofs.«178124_j25400436588659_1_alg».proof.Proof.LibVariance
import Mathlib.Algebra.BigOperators.Fin
import Mathlib.Algebra.Order.BigOperators.Group.Finset
import Mathlib.Data.Fintype.BigOperators
import Mathlib.Analysis.SpecialFunctions.Pow.Real
import Mathlib.Tactic.NormNum
import Mathlib.Tactic.Positivity

noncomputable section

namespace Cert.Bridge

open Idealize.ShloMosaic Idealize.ShloMosaic.ValueIdx Cert.Spec

/-! ## The three float words -/

/-- The word of all zero bits denotes zero. -/
theorem z32_eq : z32 = 0 := by
  simp [z32, Ideal.ofBits, Ideal.ieee]

/-- The count word denotes the real number 200000 (sign 0, exponent 144, fraction 0x435000:
    (2^23 + 4411392) * 2^(144 - 127 - 23) = 12800000 / 64). -/
theorem cnt32_eq : cnt32 = ((200000 : ℝ) : EReal) := by
  simp [cnt32, Ideal.ofBits, Ideal.ieee, -EReal.coe_mul]; norm_num

/-- The epsilon word denotes a positive real number (sign 0, exponent 110, fraction 0x27C5AC:
    (2^23 + 2606508) * 2^(110 - 127 - 23) = 10995116 / 2^40). -/
theorem eps32_real : ∃ e : ℝ, 0 < e ∧ eps32 = (e : EReal) := by
  refine ⟨10995116 / 2 ^ 40, by positivity, ?_⟩
  simp [eps32, Ideal.ofBits, Ideal.ieee, -EReal.coe_mul]; norm_num

/-- A mean: the sum, with the zero word added in front, divided by the count word, is the product of the sum with
    the reciprocal of 200000. -/
theorem div_cnt (S : EReal) : Ideal.div (z32 + S) cnt32 = S * ((1 / 200000 : ℝ) : EReal) := by
  rw [z32_eq, zero_add, cnt32_eq, Ideal.div_coe (by norm_num)]

/-! ## The algebra, over an abstract finite family of real data -/

/-- The two affine forms agree on real numbers: with mean μ and reciprocal deviation s,
    x·(γ·s) + (β − (μ·γ)·s) = ((x − μ)·s)·γ + β. -/
theorem affine_forms_eq (xv γv βv μ s : ℝ) :
    (xv : EReal) * ((γv : EReal) * (s : EReal)) + ((βv : EReal) - ((μ : EReal) * (γv : EReal)) * (s : EReal))
      = (((xv : EReal) - (μ : EReal)) * (s : EReal)) * (γv : EReal) + (βv : EReal) := by
  simp only [← EReal.coe_mul, ← EReal.coe_sub, ← EReal.coe_add]
  congr 1
  ring

/-- For a family of 200000 real numbers and a positive real e: the mean is the image of a real number, and the
    reciprocal square roots of (variance + e), the variance taken either as the mean of squares less the squared
    mean or as the mean of the squared deviations, are both the image of one and the same real number. -/
theorem stats_real {ι : Type} [Fintype ι] (d : ι → ℝ) (hcard : (Fintype.card ι : ℝ) = 200000)
    (e : ℝ) (he : 0 < e) :
    ∃ μ s : ℝ,
      (∑ i, (d i : EReal)) * ((1 / 200000 : ℝ) : EReal) = (μ : EReal) ∧
      Ideal.rsqrt ((∑ i, (d i : EReal) * (d i : EReal)) * ((1 / 200000 : ℝ) : EReal)
          - ((∑ i, (d i : EReal)) * ((1 / 200000 : ℝ) : EReal)) * ((∑ i, (d i : EReal)) * ((1 / 200000 : ℝ) : EReal))
          + (e : EReal)) = (s : EReal) ∧
      Ideal.rsqrt ((∑ i, ((d i : EReal) - (∑ j, (d j : EReal)) * ((1 / 200000 : ℝ) : EReal))
            * ((d i : EReal) - (∑ j, (d j : EReal)) * ((1 / 200000 : ℝ) : EReal))) * ((1 / 200000 : ℝ) : EReal)
          + (e : EReal)) = (s : EReal) := by
  -- the mean, over the reals
  have hS : (∑ j, (d j : EReal)) = ((∑ j, d j : ℝ) : EReal) := coe_finset_sum _ _
  have hμ : (∑ j, (d j : EReal)) * ((1 / 200000 : ℝ) : EReal) = (((∑ j, d j) * (1 / 200000) : ℝ) : EReal) := by
    rw [hS, ← EReal.coe_mul]
  -- the mean of the squared deviations is the image of a nonnegative real
  have hD : (∑ i, ((d i : EReal) - (∑ j, (d j : EReal)) * ((1 / 200000 : ℝ) : EReal))
            * ((d i : EReal) - (∑ j, (d j : EReal)) * ((1 / 200000 : ℝ) : EReal))) * ((1 / 200000 : ℝ) : EReal)
      = (((∑ i, (d i - (∑ j, d j) * (1 / 200000)) * (d i - (∑ j, d j) * (1 / 200000))) * (1 / 200000) : ℝ) : EReal) := by
    rw [hμ, EReal.coe_mul
      (∑ i, (d i - (∑ j, d j) * (1 / 200000)) * (d i - (∑ j, d j) * (1 / 200000))) (1 / 200000),
      ← coe_finset_sum]
    refine congrArg (· * ((1 / 200000 : ℝ) : EReal)) (Finset.sum_congr rfl (fun i _ => ?_))
    rw [← EReal.coe_sub, ← EReal.coe_mul]
  have hv : 0 ≤ (∑ i, (d i - (∑ j, d j) * (1 / 200000)) * (d i - (∑ j, d j) * (1 / 200000))) * (1 / 200000 : ℝ) :=
    mul_nonneg (Finset.sum_nonneg (fun i _ => mul_self_nonneg _)) (by norm_num)
  -- the two variances are equal
  have hvar := var_identity d 200000 (by norm_num) hcard
  refine ⟨(∑ j, d j) * (1 / 200000),
    (Real.sqrt ((∑ i, (d i - (∑ j, d j) * (1 / 200000)) * (d i - (∑ j, d j) * (1 / 200000))) * (1 / 200000) + e))⁻¹,
    hμ, ?_, ?_⟩
  · rw [← hvar, hD, ← EReal.coe_add, Ideal.rsqrt_coe, if_neg (by linarith), if_neg (by linarith)]
  · rw [hD, ← EReal.coe_add, Ideal.rsqrt_coe, if_neg (by linarith), if_neg (by linarith)]

/-! ## The index plumbing: a group's 200000 entries -/

/-- A group's total from the column sums is the sum over the group's (row, member) pairs. -/
theorem group_sum (x : Tab) (g : Fin 32) :
    ∑ j : Fin 2, colSum x (ix2 0 (col g j)) = ∑ p : Fin 100000 × Fin 2, x (ix2 p.1 (col g p.2)) := by
  rw [Fintype.sum_prod_type, Finset.sum_comm]
  rfl

/-- A group's total of squares from the column sums of squares is the sum over the group's (row, member) pairs. -/
theorem group_sum_sq (x : Tab) (g : Fin 32) :
    ∑ j : Fin 2, colSumSq x (ix2 0 (col g j))
      = ∑ p : Fin 100000 × Fin 2, x (ix2 p.1 (col g p.2)) * x (ix2 p.1 (col g p.2)) := by
  rw [Fintype.sum_prod_type, Finset.sum_comm]
  rfl

/-- On real data, a group's mean and reciprocal deviation are images of real numbers, the same for both
    arrangements. -/
theorem group_stats (x : Tab) (xr : (⟨2, ![100000, 64]⟩ : Shape).Idx → ℝ) (hxr : ∀ i, x i = (xr i : EReal))
    (g : Fin 32) :
    ∃ μ s : ℝ, meanK (colSum x) g = (μ : EReal) ∧ meanR x g = (μ : EReal) ∧
      sK (colSum x) (colSumSq x) g = (s : EReal) ∧ sR x g = (s : EReal) := by
  obtain ⟨e, he, hee⟩ := eps32_real
  have hcard : (Fintype.card (Fin 100000 × Fin 2) : ℝ) = 200000 := by
    rw [Fintype.card_prod, Fintype.card_fin, Fintype.card_fin]; norm_num
  obtain ⟨μ, s, hμ, hsK, hsR⟩ :=
    stats_real (fun p : Fin 100000 × Fin 2 => xr (ix2 p.1 (col g p.2))) hcard e he
  have hmK : meanK (colSum x) g = (μ : EReal) := by
    unfold meanK
    rw [div_cnt, group_sum]
    simp only [hxr]
    exact hμ
  have hmR : meanR x g = (μ : EReal) := by
    unfold meanR
    rw [div_cnt]
    simp only [hxr]
    exact hμ
  refine ⟨μ, s, hmK, hmR, ?_, ?_⟩
  · unfold sK varK
    rw [hmK, ← hμ, div_cnt, group_sum_sq, hee]
    simp only [hxr]
    exact hsK
  · unfold sR varR
    rw [div_cnt, hee]
    unfold meanR
    rw [div_cnt]
    simp only [hxr]
    exact hsR

/-- On real-valued data the kernel's arrangement and the reference's arrangement give the same normalised table. -/
theorem YK_eq_YR (x : Tab) (γ β : Vec64) (hx : ∀ i, ∃ r : ℝ, x i = (r : EReal)) (hγ : ∀ i, ∃ r : ℝ, γ i = (r : EReal))
    (hβ : ∀ i, ∃ r : ℝ, β i = (r : EReal)) : YK x γ β = YR x γ β := by
  choose xr hxr using hx
  choose γr hγr using hγ
  choose βr hβr using hβ
  funext i
  obtain ⟨μ, s, hmK, hmR, hsK, hsR⟩ := group_stats x xr hxr (grp (i 1))
  show max (x i * (γ (ix1 (i 1)) * sK (colSum x) (colSumSq x) (grp (i 1)))
        + (β (ix1 (i 1)) - (meanK (colSum x) (grp (i 1)) * γ (ix1 (i 1))) * sK (colSum x) (colSumSq x) (grp (i 1)))) z32
      = max (((x i - meanR x (grp (i 1))) * sR x (grp (i 1))) * γ (ix1 (i 1)) + β (ix1 (i 1))) z32
  rw [hmK, hmR, hsK, hsR, hxr i, hγr (ix1 (i 1)), hβr (ix1 (i 1)), affine_forms_eq]

end Cert.Bridge
end
-- ==== Proof.Finite.lean ====
/-
  The precondition, decoded: where every float input is finite, the table, gamma and beta are real-valued.

  The precondition says that for each float input, every entry x satisfies |x| < +inf, the four conjunctions over all
  entries joined by `and`. On the extended reals |x| = max x (-x) and the word 0x7F800000 is the top element, so an
  entry with |x| below it is neither infinity: it is the image of a real number.
-/
import proofs.«178124_j25400436588659_1_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.Finite

open Idealize.ShloMosaic Idealize.ShloMosaic.ValueIdx Cert.Pre_finite_inputs

/-- The word of +inf denotes the top element. -/
theorem ofBits_inf : Ideal.ofBits .f32 0x7F800000#32 = (⊤ : EReal) := by
  simp [Ideal.ofBits, Ideal.ieee]

/-- An extended real whose absolute value is below +inf is the image of a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | coe r => exact ⟨r, rfl⟩
  | top => exact absurd h (by simp [Ideal.cmp])

instance : Subsingleton S_.Idx := ⟨fun a b => funext fun d => d.elim0⟩

variable [Facts]
open Facts

/-- Under the precondition the table, gamma and beta are real-valued. -/
theorem real_of_pre (x0 : FVec Ideal S100000x64 .f32) (x1 : IVec S300000x9 32) (x2 x3 : FVec Ideal S64 .f32)
    (x4 : FVec Ideal S576x64 .f32) (h : fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun i => ?_, fun i => ?_, fun i => ?_⟩
  · exact real_of_abs_lt (x0 i) (Host.reduce_andi_all _ _ _ _ _ h1 i)
  · exact real_of_abs_lt (x2 i) (Host.reduce_andi_all _ _ _ _ _ h2 i)
  · exact real_of_abs_lt (x3 i) (Host.reduce_andi_all _ _ _ _ _ h3 i)

end Cert.Finite
end
-- ==== Proof.lean ====
/-
  The kernel normalises a table x[100000, 64] group by group (32 groups of two adjacent columns, statistics over all rows),
  applies gamma and beta, clamps at zero, gathers rows through an index table, and multiplies the flattened gathered rows by a
  weight matrix; the reference does the same in another arrangement.

  The kernel takes column sums S and sums of squares Q in a first pass, forms per group mean = sum / 200000 and
  var = sumsq / 200000 - mean^2, and applies y = x * (gamma * s) + (beta - (mean * gamma) * s) with s = rsqrt(var + eps) in
  a second pass; the reference forms var as the mean of squared deviations and applies ((x - mean) * s) * gamma + beta.
  On real-valued data the two variances agree (the variance identity), the reciprocal deviation is a real number
  (var + eps > 0), and the two affine forms agree by the ring laws; on the extended reals these laws need the data to be
  real-valued, which is what the precondition (every float input finite) gives. The gather and the product with the
  weights are the same functions of the normalised table on both sides; on the extended reals a change of float format is
  the identity and a blockwise matrix product into a zero accumulator is the plain contraction.

  The three programs terminate without a fault and leave their arguments unchanged (the frames); the idealised kernel is
  the kernel's own text read on the extended reals (no rewrite was applied, so nothing is to be preserved).
-/
import proofs.«178124_j25400436588659_1_alg».proof.Defs
import proofs.«178124_j25400436588659_1_alg».proof.Proof.Gen.Kernel
import proofs.«178124_j25400436588659_1_alg».proof.Proof.Gen.Kernel.Frame
import proofs.«178124_j25400436588659_1_alg».proof.Proof.Gen.KernelIdeal
import proofs.«178124_j25400436588659_1_alg».proof.Proof.Gen.KernelIdeal.Frame
import proofs.«178124_j25400436588659_1_alg».proof.Proof.Gen.ReferenceIdeal
import proofs.«178124_j25400436588659_1_alg».proof.Proof.Gen.ReferenceIdeal.Run
import proofs.«178124_j25400436588659_1_alg».proof.Proof.Gen.ReferenceIdeal.Read
import proofs.«178124_j25400436588659_1_alg».proof.Proof.Gen.Pre_finite_inputs
import proofs.«178124_j25400436588659_1_alg».proof.Proof.KernelValue
import proofs.«178124_j25400436588659_1_alg».proof.Proof.RefValue
import proofs.«178124_j25400436588659_1_alg».proof.Proof.Bridge
import proofs.«178124_j25400436588659_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ
/-- The idealised kernel program runs and leaves its arguments unchanged. -/
theorem frame_ki : Cert.frame_KernelIdeal := fun m ρ _ => Cert.KernelIdeal.Gen.frame m ρ
/-- The idealised reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- On the extended reals, from memories that agree on the arguments and hold finite float inputs, both programs end with
    the gathered matrix of the normalised table times the weights; the kernel's table and the reference's are one
    function on real-valued data. -/
theorem algebraic : Cert.algebraic_KernelIdeal_ReferenceIdeal := by
  intro m ρ m' ρ' hpre hagree
  refine ⟨fun c => Cert.Spec.mm (Cert.KernelIdeal.Stretch2.gathK (F := Ideal)
      (Cert.Spec.YK (Cert.KernelIdeal.Value.xa m c) (Cert.KernelIdeal.Value.ga m c) (Cert.KernelIdeal.Value.ba m c))
      (Cert.KernelIdeal.Value.ia m c)) (Cert.KernelIdeal.Value.wa m c),
    Cert.KernelIdeal.Value.run m ρ, ?_⟩
  refine (θ_run Cert.ReferenceIdeal.defs _ _).mono (fun _ h c => ⟨?_, (h c).2⟩)
    (Cert.ReferenceIdeal.Value.run (F := Ideal) m' ρ')
  obtain ⟨hx, hγ, hβ⟩ := Cert.Finite.real_of_pre _ _ _ _ _ (hpre c)
  rw [(h c).1, Cert.ReferenceIdeal.Read.val_main_v35_eq, (hagree c).1, (hagree c).2.1, (hagree c).2.2.1, (hagree c).2.2.2.1,
    (hagree c).2.2.2.2, Cert.ReferenceIdeal.RefValue.result_eq, Cert.ReferenceIdeal.RefValue.table_eq,
    ← Cert.Bridge.YK_eq_YR _ _ _ hx hγ hβ]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
